-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S512x1024 : Shape := ⟨2, ![512, 1024]⟩
abbrev S512 : Shape := ⟨1, ![512]⟩
abbrev S1000x2048 : Shape := ⟨2, ![1000, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1000x2048 : S_.BroadcastsInDim S1000x2048 (![] : Fin 0 → Fin S1000x2048.rank)
  reducesTo_S1000x2048_S_d0_1 : S1000x2048.ReducesTo [0, 1] S_

variable [Facts]

def fn_part2 {F : FTy → Type} [FloatOps F] (main_arg7 : FVec F S512 .f32) (main_arg8 : FVec F S1000x2048 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1000x2048 .f32 := Host.absf main_arg8
  let main_cst_14 : FVec F S_ .f32 := constant S_ .f32 0x7F800000#32
  let main_v40 : FVec F S1000x2048 .f32 := broadcastInDim S1000x2048 ![] bcast_S_S1000x2048 main_cst_14
  let main_v41 : IVec S1000x2048 1 := cmpf .olt main_v39 main_v40
  let main_c_15 : IVec S_ 1 := constantI S_ 1 1#1
  let main_v42 : IVec S_ 1 := (fun x v => Host.reduce IntOp.andi x v reducesTo_S1000x2048_S_d0_1 h_S_) main_v41 main_c_15
  let main_v43 : IVec S_ 1 := andi main_v38 main_v42
  main_v43

def fn_part1 {F : FTy → Type} [FloatOps F] (main_arg4 : FVec F S512x1024 .f32) (main_arg5 : FVec F S512 .f32) (main_arg6 : FVec F S512x1024 .f32) (main_arg7 : FVec F S512 .f32) (main_arg8 : FVec F S1000x2048 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S512x1024 .f32) (main_arg5 : FVec F S512 .f32) (main_arg6 : FVec F S512x1024 .f32) (main_arg7 : FVec F S512 .f32) (main_arg8 : FVec F S1000x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S512x1024 : Shape := ⟨2, ![512, 1024]⟩
abbrev S512 : Shape := ⟨1, ![512]⟩
abbrev S1000x2048 : Shape := ⟨2, ![1000, 2048]⟩
abbrev S1024x512 : Shape := ⟨2, ![1024, 512]⟩
abbrev S1x512 : Shape := ⟨2, ![1, 512]⟩
abbrev S2048x1000 : Shape := ⟨2, ![2048, 1000]⟩
abbrev S_ : Shape := ⟨0, ![]⟩
abbrev S1000 : Shape := ⟨1, ![1000]⟩
abbrev S1x1000 : Shape := ⟨2, ![1, 1000]⟩
abbrev S4096x2048 : Shape := ⟨2, ![4096, 2048]⟩
abbrev S256x1024 : Shape := ⟨2, ![256, 1024]⟩
abbrev S256x2048 : Shape := ⟨2, ![256, 2048]⟩
abbrev S256x512 : Shape := ⟨2, ![256, 512]⟩
abbrev S4096x1000 : Shape := ⟨2, ![4096, 1000]⟩
abbrev S512x2048 : Shape := ⟨2, ![512, 2048]⟩
abbrev S512x1000 : Shape := ⟨2, ![512, 1000]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S1000x2048, .f32⟩
  | .hbm, ⟨9, _⟩ => ⟨S1024x512, .f32⟩
  | .hbm, ⟨10, _⟩ => ⟨S1024x512, .f32⟩
  | .hbm, ⟨11, _⟩ => ⟨S1x512, .f32⟩
  | .hbm, ⟨12, _⟩ => ⟨S1x512, .f32⟩
  | .hbm, ⟨13, _⟩ => ⟨S2048x1000, .f32⟩
  | .hbm, ⟨14, _⟩ => ⟨S2048x1000, .bf16⟩
  | .hbm, ⟨15, _⟩ => ⟨S1000x2048, .f32⟩
  | .hbm, ⟨16, _⟩ => ⟨S_, .f32⟩
  | .hbm, ⟨17, _⟩ => ⟨S1000, .f32⟩
  | .hbm, ⟨18, _⟩ => ⟨S1x1000, .f32⟩
  | .hbm, ⟨19, _⟩ => ⟨S4096x2048, .bf16⟩
  | .hbm, ⟨20, _⟩ => ⟨S4096x1000, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x512, .f32⟩
  | .local _ .vmem, ⟨9, _⟩ => ⟨S1x512, .f32⟩
  | .local _ .vmem, ⟨10, _⟩ => ⟨S1024x512, .f32⟩
  | .local _ .vmem, ⟨11, _⟩ => ⟨S1x512, .f32⟩
  | .local _ .vmem, ⟨12, _⟩ => ⟨S256x2048, .bf16⟩
  | .local _ .vmem, ⟨13, _⟩ => ⟨S256x2048, .bf16⟩
  | .local _ .vmem, ⟨14, _⟩ => ⟨S512x2048, .bf16⟩
  | .local _ .vmem, ⟨15, _⟩ => ⟨S512x2048, .bf16⟩
  | .local _ .vmem, ⟨16, _⟩ => ⟨S2048x1000, .bf16⟩
  | .local _ .vmem, ⟨17, _⟩ => ⟨S1x1000, .f32⟩
  | .local _ .vmem, ⟨18, _⟩ => ⟨S512x1000, .f32⟩
  | .local _ .vmem, ⟨19, _⟩ => ⟨S512x1000, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S512x1024_S1024x512_1_0 : S512x1024.Transposes [1, 0] S1024x512
  shapeCasts_S512_S1x512 : S512.ShapeCasts S1x512
  transposes_S1000x2048_S2048x1000_1_0 : S1000x2048.Transposes [1, 0] S2048x1000
  bitsLt_bf16_f32 : FTy.bits .bf16 < FTy.bits .f32
  reducesTo_S1000x2048_S1000_d1 : S1000x2048.ReducesTo [1] S1000
  h_S_ : 0 < S_.numel
  shapeCasts_S1000_S1x1000 : S1000.ShapeCasts S1x1000
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x1024_S256x1024_0_0 : ∀ a, (![0, 0] : Fin 2 → Nat) a + S256x1024.size a ≤ S256x1024.size a
  h_S256x1024 : 0 < S256x1024.numel
  broadcasts_S1x512_S256x512 : S1x512.Broadcasts S256x512
  concatenates_S256x512_S256x512_S256x512_S256x512_S256x2048_d1 : Shape.Concatenates [S256x512, S256x512, S256x512, S256x512] S256x2048 1
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  reduces_S512x2048_S512 : S512x2048.Reduces [1] S512
  shapeCasts_S512_S512x1 : S512.ShapeCasts S512x1
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S512x1_S512x1000 : S512x1.Broadcasts S512x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S256x1024_S1024x512_S256x512_1_0_0_1_n_n_wf : DotDims.WF S256x1024 S1024x512 S256x512 [1] [0] [0] [1] [] []
  dot_S512x2048_S2048x1000_S512x1000_1_0_0_1_n_n_wf : DotDims.WF S512x2048 S2048x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .f32 = 32 ∨ (Rect.block (s := S1024x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .f32 = 32 ∨ (Rect.block (s := S1024x512) S1024x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .bf16 = 32 ∨ (Rect.block (s := S4096x2048) S256x2048.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1000.size a ≤ S2048x1000.size a
  hwx1_1 : ∀ i : grid1.Coords, EltTy.bits .bf16 = 32 ∨ (Rect.block (s := S2048x1000) S2048x1000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1000.size a ≤ S4096x1000.size a
  hwx1_3 : ∀ i : grid1.Coords, EltTy.bits .f32 = 32 ∨ (Rect.block (s := S4096x1000) S512x1000.size (cc1_transform_3 i) (hinb1_3 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S512x2048_S2048x1000_S512x1000_1_0_0_1_n_n : DotDims S512x2048 S2048x1000 S512x1000 where
  lhsContracting := [1]
  rhsContracting := [0]
  lhsNonContracting := [0]
  rhsNonContracting := [1]
  lhsBatch := []
  rhsBatch := []
  wf := dot_S512x2048_S2048x1000_S512x1000_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x1000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S512x1024 : Shape := ⟨2, ![512, 1024]⟩
abbrev S512 : Shape := ⟨1, ![512]⟩
abbrev S1000x2048 : Shape := ⟨2, ![1000, 2048]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1000 : Shape := ⟨1, ![1000]⟩
abbrev S1x1000 : Shape := ⟨2, ![1, 1000]⟩
abbrev S4096x1000 : Shape := ⟨2, ![4096, 1000]⟩
abbrev S2048x1000 : Shape := ⟨2, ![2048, 1000]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S1000x2048, .f32⟩
  | .hbm, ⟨9, _⟩ => ⟨S1024x512, .f32⟩
  | .hbm, ⟨10, _⟩ => ⟨S4096x512, .f32⟩
  | .hbm, ⟨11, _⟩ => ⟨S1x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S1024x512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S1024x512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S1024x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S1000x2048, .f32⟩
  | .hbm, ⟨47, _⟩ => ⟨S_, .f32⟩
  | .hbm, ⟨48, _⟩ => ⟨S1000, .f32⟩
  | .hbm, ⟨49, _⟩ => ⟨S1x1000, .f32⟩
  | .hbm, ⟨50, _⟩ => ⟨S4096x1000, .f32⟩
  | .hbm, ⟨51, _⟩ => ⟨S4096x1000, .f32⟩
  | .hbm, ⟨52, _⟩ => ⟨S4096x1000, .f32⟩
  | .hbm, ⟨53, _⟩ => ⟨S2048x1000, .f32⟩
  | .hbm, ⟨54, _⟩ => ⟨S4096x1000, .f32⟩
  | .hbm, ⟨55, _⟩ => ⟨S_, .f32⟩
  | .hbm, ⟨56, _⟩ => ⟨S4096x1000, .f32⟩
  | .hbm, ⟨57, _⟩ => ⟨S4096x1000, .f32⟩
  | .hbm, ⟨58, _⟩ => ⟨S4096x1000, .f32⟩
  | .hbm, ⟨59, _⟩ => ⟨S_, .f32⟩
  | .hbm, ⟨60, _⟩ => ⟨S4096x1000, .f32⟩
  | .hbm, ⟨61, _⟩ => ⟨S4096x1000, .f32⟩
  | .hbm, ⟨62, _⟩ => ⟨S4096x1000, .f32⟩
  | .hbm, ⟨63, _⟩ => ⟨S_, .f32⟩
  | .hbm, ⟨64, _⟩ => ⟨S4096x1000, .f32⟩
  | .hbm, ⟨65, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call3_cst : Ref sig .tc := ⟨.hbm, 38, rfl⟩
abbrev main_call3_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  concatenates_S4096x512_S4096x512_S4096x512_S4096x512_S4096x2048_d1 : Shape.Concatenates [S4096x512, S4096x512, S4096x512, S4096x512] S4096x2048 1
  reducesTo_S4096x2048_S4096_d1 : S4096x2048.ReducesTo [1] S4096
  h_S_ : 0 < S_.numel
  bcast_S4096_S4096x1_0 : S4096.BroadcastsInDim S4096x1 (![0] : Fin 1 → Fin S4096x1.rank)
  reducesTo_S1000x2048_S1000_d1 : S1000x2048.ReducesTo [1] S1000
  bcast_S1000_S1x1000_1 : S1000.BroadcastsInDim S1x1000 (![1] : Fin 1 → Fin S1x1000.rank)
  bcast_S4096x1_S4096x1000_0_1 : S4096x1.BroadcastsInDim S4096x1000 (![0, 1] : Fin 2 → Fin S4096x1000.rank)
  bcast_S1x1000_S4096x1000_0_1 : S1x1000.BroadcastsInDim S4096x1000 (![0, 1] : Fin 2 → Fin S4096x1000.rank)
  transposes_S1000x2048_S2048x1000_1_0 : S1000x2048.Transposes [1, 0] S2048x1000
  bcast_S_S4096x1000 : S_.BroadcastsInDim S4096x1000 (![] : Fin 0 → Fin S4096x1000.rank)
  dot_S4096x1024_S1024x512_S4096x512_1_0_0_1_n_n_wf : DotDims.WF S4096x1024 S1024x512 S4096x512 [1] [0] [0] [1] [] []
  dot_S4096x2048_S2048x1000_S4096x1000_1_0_0_1_n_n_wf : DotDims.WF S4096x2048 S2048x1000 S4096x1000 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x2048_S2048x1000_S4096x1000_1_0_0_1_n_n : DotDims S4096x2048 S2048x1000 S4096x1000 where
  lhsContracting := [1]
  rhsContracting := [0]
  lhsNonContracting := [0]
  rhsNonContracting := [1]
  lhsBatch := []
  rhsBatch := []
  wf := dot_S4096x2048_S2048x1000_S4096x1000_1_0_0_1_n_n_wf

class Facts : Prop extends Facts₀ where

variable [Facts]
-- ==== Proof.Spec.lean ====
/-
  The function both programs compute, over the extended reals, index by index.

  Four inputs x₀ … x₃ (each [4096 × 1024]) go through a linear map and a rectifier — x₀ with the weights W_f and the bias
  b_f, the other three with W_r and b_r — and the four [4096 × 512] results are laid side by side into a feature matrix
  f of 2048 columns. Against 1000 centers (the rows of a [1000 × 2048] matrix) the result at (r, c) is

      √( max( (‖f_r‖² + ‖center_c‖²) − 2 · ⟨f_r, center_c⟩ , 0 ) ) · s

  with the squared norms and the inner product written out as sums over the 2048 columns, `2` and the scale `s` the
  two float words both programs carry, and `0` the zero word.

  The kernel receives its weights transposed ([1024 × 512]), its biases and the centers' squared norms as one-row
  matrices, and the centers transposed ([2048 × 1000]); the definitions below are therefore stated over operands in
  that layout (`features`, `distances`), and the function of the nine argument arrays (`result`) feeds them the
  transposes and rows of the arguments.
-/
import Idealize.ShloMosaic.PureOps.Ideal.Laws
import Idealize.ShloMosaic.Lib.ValueIdx

noncomputable section

namespace Cert.CenterDistance

open Idealize.ShloMosaic Idealize.ShloMosaic.ValueIdx

/-- An [a × b] matrix of extended reals. -/
abbrev Mat (a b : Nat) : Type := (⟨2, ![a, b]⟩ : Shape).Idx → EReal
/-- A vector of `a` extended reals. -/
abbrev Row (a : Nat) : Type := (⟨1, ![a]⟩ : Shape).Idx → EReal

/-- The zero word. -/
abbrev zeroW : EReal := Ideal.ofBits .f32 0x00000000#32
/-- The word both programs multiply the inner product by (2.0). -/
abbrev twoW : EReal := Ideal.ofBits .f32 0x40000000#32
/-- The word both programs scale the distance by (the float nearest −0.1). -/
abbrev scaleW : EReal := Ideal.ofBits .f32 0xBDCCCCCD#32

/-- The transpose of a matrix. -/
def tr {a b : Nat} (w : Mat a b) : Mat b a := fun i => w (ix2 (i 1) (i 0))
/-- A vector as a one-row matrix. -/
def asRow {a : Nat} (v : Row a) : Mat 1 a := fun i => v (ix1 (i 1))
/-- The squared norm of each of the 1000 centers. -/
def sqNorms (cen : Mat 1000 2048) : Row 1000 := fun i => ∑ d : Fin 2048, cen (ix2 (i 0) d) * cen (ix2 (i 0) d)

/-- One branch: row `r` of `x` against column `j` of the transposed weights, plus the bias, rectified. -/
def branch (x : Mat 4096 1024) (wt : Mat 1024 512) (b : Mat 1 512) : Mat 4096 512 := fun i =>
  max ((∑ k : Fin 1024, x (ix2 (i 0) k) * wt (ix2 k (i 1))) + b (ix2 0 (i 1))) zeroW

theorem branch_apply (x : Mat 4096 1024) (wt : Mat 1024 512) (b : Mat 1 512) (r : Fin 4096) (j : Fin 512) :
    branch x wt b (ix2 r j) = max ((∑ k : Fin 1024, x (ix2 r k) * wt (ix2 k j)) + b (ix2 0 j)) zeroW := rfl

theorem joins : Shape.Concatenates [(⟨2, ![4096, 512]⟩ : Shape), ⟨2, ![4096, 512]⟩, ⟨2, ![4096, 512]⟩, ⟨2, ![4096, 512]⟩]
    (⟨2, ![4096, 2048]⟩ : Shape) 1 := by decide

/-- The feature matrix: the four branches side by side. -/
def features (x0 x1 x2 x3 : Mat 4096 1024) (wft : Mat 1024 512) (bf : Mat 1 512) (wrt : Mat 1024 512) (br : Mat 1 512) :
    Mat 4096 2048 :=
  concatenate (⟨2, ![4096, 2048]⟩ : Shape) 1
    [⟨⟨2, ![4096, 512]⟩, branch x0 wft bf⟩, ⟨⟨2, ![4096, 512]⟩, branch x1 wrt br⟩,
     ⟨⟨2, ![4096, 512]⟩, branch x2 wrt br⟩, ⟨⟨2, ![4096, 512]⟩, branch x3 wrt br⟩] joins

/-- The scaled distance of each feature row to each center, from the feature matrix, the transposed centers and the
    centers' squared norms (a one-row matrix). -/
def distances (f : Mat 4096 2048) (ct : Mat 2048 1000) (c2 : Mat 1 1000) : Mat 4096 1000 := fun i =>
  Ideal.sqrt (max (((∑ d : Fin 2048, f (ix2 (i 0) d) * f (ix2 (i 0) d)) + c2 (ix2 0 (i 1)))
      - twoW * ∑ d : Fin 2048, f (ix2 (i 0) d) * ct (ix2 d (i 1))) zeroW) * scaleW

theorem distances_apply (f : Mat 4096 2048) (ct : Mat 2048 1000) (c2 : Mat 1 1000) (r : Fin 4096) (c : Fin 1000) :
    distances f ct c2 (ix2 r c)
      = Ideal.sqrt (max (((∑ d : Fin 2048, f (ix2 r d) * f (ix2 r d)) + c2 (ix2 0 c))
          - twoW * ∑ d : Fin 2048, f (ix2 r d) * ct (ix2 d c)) zeroW) * scaleW := rfl

/-- The result as a function of the nine argument arrays. -/
def result (x0 x1 x2 x3 : Mat 4096 1024) (wf : Mat 512 1024) (bf : Row 512) (wr : Mat 512 1024) (br : Row 512)
    (cen : Mat 1000 2048) : Mat 4096 1000 :=
  distances (features x0 x1 x2 x3 (tr wf) (asRow bf) (tr wr) (asRow br)) (tr cen) (asRow (sqNorms cen))

end Cert.CenterDistance

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.LibColumnLayout.lean ====
/-
  Column layouts and row sums of a matrix, read at an entry.

  A vector of length `a` recast as an [a × 1] column, such a column broadcast along a second axis of length `b`, and the
  sum of each row of an [a × b] matrix of extended reals (as a lane reduction, and as the host's reduction from an
  initial value): each read at explicit coordinates.
-/
import Idealize.ShloMosaic.Lib.Pipeline.Value
import Idealize.ShloMosaic.Lib.ValueIdx
import Idealize.ShloMosaic.PureOps.Ideal.Laws

noncomputable section

namespace Idealize.ShloMosaic.ColumnLayout

open Idealize.ShloMosaic Idealize.ShloMosaic.ValueIdx

variable {α : Type}

/-- A vector of length `a` recast as an [a × 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a × 1] column broadcast to [a × b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum along the second axis of an [a × b] matrix, at row p, is the sum of that row. -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ d : Fin b, src (ix2 p d) := by
  rw [Ideal.multiReduction_add_single]
  show ∑ d : Fin b, src (h.lift (ix1 p) d) = _
  refine Finset.sum_congr rfl fun d _ => congrArg src (funext fun ax => Fin.ext ?_)
  match ax with
  | ⟨0, _⟩ => rfl
  | ⟨1, _⟩ => rfl

/-- The host's sum along the second axis of an [a × b] matrix from an initial value, at row p: the initial value plus
    the sum of that row. -/
theorem hostRowSum_apply {a b : ℕ} (h' : (⟨2, ![a, b]⟩ : Shape).ReducesTo [1] ⟨1, ![a]⟩) (h : (⟨2, ![a, b]⟩ : Shape).Reduces [1] ⟨1, ![a]⟩)
    (x : (⟨2, ![a, b]⟩ : Shape).Idx → EReal) (init : EReal) (p : Fin a) :
    Ideal.hostReduceAdd h' x init (ix1 p) = init + ∑ d : Fin b, x (ix2 p d) := by
  rw [Ideal.hostReduceAdd_single h' h]
  show init + ∑ d : Fin b, x (h.lift (ix1 p) d) = _
  refine congrArg (init + ·) (Finset.sum_congr rfl fun d _ => congrArg x (funext fun ax => Fin.ext ?_))
  match ax with
  | ⟨0, _⟩ => rfl
  | ⟨1, _⟩ => rfl

end Idealize.ShloMosaic.ColumnLayout

end
-- ==== Proof.DistancePoint.lean ====
/-
  The second region's arithmetic at one entry of a block.

  From a [512 × 2048] block f of feature rows, the transposed centers ct ([2048 × 1000]) and the centers' squared
  norms c2 (one row of 1000), the value stored at (p, q) is
      √( max( (Σ_d f[p,d]² + c2[0,q]) − 2 · Σ_d f[p,d] · ct[d,q] , 0 ) ) · s :
  the matrix product into a zero accumulator is the sum over the contracted axis, the lane sum of the squared block
  (recast as a column and broadcast along the row) is the row's sum of squares, the broadcast row of squared norms is
  read at its column, and the changes of float format are the identity on extended reals.
-/
import proofs.«168109_j69372311765581_1_alg».proof.Proof.Gen.KernelIdeal.Skeleton
import proofs.«168109_j69372311765581_1_alg».proof.Proof.Spec
import proofs.«168109_j69372311765581_1_alg».proof.Proof.LibMatmulAt
import proofs.«168109_j69372311765581_1_alg».proof.Proof.LibColumnLayout
import Idealize.ShloMosaic.Lib.ValueLayout

noncomputable section

namespace Cert.KernelIdeal.DistancePoint

open Cert.KernelIdeal Cert.KernelIdeal.Gen Idealize.ShloMosaic Idealize.ShloMosaic.ValueIdx Cert.CenterDistance

/-! The product's dimension numbers read the block at (row, d) and the transposed centers at (d, column). -/

theorem lhs_0 (i : S512x1000.Idx) (q : dot_S512x2048_S2048x1000_S512x1000_1_0_0_1_n_n.contr.Idx) :
    (dot_S512x2048_S2048x1000_S512x1000_1_0_0_1_n_n.lhsIdx i q 0).val = (i 0).val := by
  unfold DotDims.lhsIdx
  rw [dif_neg (show ¬(0 : Fin S512x2048.rank) ∈ dot_S512x2048_S2048x1000_S512x1000_1_0_0_1_n_n.lhsBatch by decide), dif_pos (show (0 : Fin S512x2048.rank) ∈ dot_S512x2048_S2048x1000_S512x1000_1_0_0_1_n_n.lhsNonContracting by decide)]
  rfl
theorem lhs_1 (i : S512x1000.Idx) (q : dot_S512x2048_S2048x1000_S512x1000_1_0_0_1_n_n.contr.Idx) :
    (dot_S512x2048_S2048x1000_S512x1000_1_0_0_1_n_n.lhsIdx i q 1).val = (q ⟨0, by decide⟩).val :=
  dot_S512x2048_S2048x1000_S512x1000_1_0_0_1_n_n.lhsIdx_val_of_single rfl i q
theorem rhs_0 (i : S512x1000.Idx) (q : dot_S512x2048_S2048x1000_S512x1000_1_0_0_1_n_n.contr.Idx) :
    (dot_S512x2048_S2048x1000_S512x1000_1_0_0_1_n_n.rhsIdx i q 0).val = (q ⟨0, by decide⟩).val :=
  dot_S512x2048_S2048x1000_S512x1000_1_0_0_1_n_n.rhsIdx_val_of_single rfl i q
theorem rhs_1 (i : S512x1000.Idx) (q : dot_S512x2048_S2048x1000_S512x1000_1_0_0_1_n_n.contr.Idx) :
    (dot_S512x2048_S2048x1000_S512x1000_1_0_0_1_n_n.rhsIdx i q 1).val = (i 1).val := by
  unfold DotDims.rhsIdx
  rw [dif_neg (show ¬(1 : Fin S2048x1000.rank) ∈ dot_S512x2048_S2048x1000_S512x1000_1_0_0_1_n_n.rhsBatch by decide), dif_pos (show (1 : Fin S2048x1000.rank) ∈ dot_S512x2048_S2048x1000_S512x1000_1_0_0_1_n_n.rhsNonContracting by decide)]
  rfl

/-- Entry (p, q) of the block's product with the transposed centers. -/
theorem product_at (f : FVec Ideal S512x2048 .bf16) (ct : FVec Ideal S2048x1000 .bf16) (p : Fin 512) (q : Fin 1000) :
    FloatOps.matmul dot_S512x2048_S2048x1000_S512x1000_1_0_0_1_n_n none f ct (constant (F := Ideal) S512x1000 .f32 0x00000000#32) (ix2 p q)
      = ∑ d : Fin 2048, f (ix2 p d) * ct (ix2 d q) :=
  MatmulAt.matmul_zero_at dot_S512x2048_S2048x1000_S512x1000_1_0_0_1_n_n rfl rfl lhs_0 lhs_1 rhs_0 rhs_1 none f ct p q

theorem sqrt_at {s : Shape} {φ : FTy} (a : FVec Ideal s φ) (i : s.Idx) : sqrt a i = Ideal.sqrt (a i) := rfl

/-- The outer operations applied to equal pieces. -/
theorem assemble {A A' B B' C C' : EReal} (hA : A = A') (hB : B = B') (hC : C = C') :
    Ideal.sqrt (max ((A + B) - twoW * C) zeroW) * scaleW = Ideal.sqrt (max ((A' + B') - twoW * C') zeroW) * scaleW := by
  rw [hA, hB, hC]

/-- What the body stores at (p, q) of its output block. -/
theorem stored_at (f : Vec Ideal S512x2048 .bf16) (ct : Vec Ideal S2048x1000 .bf16) (c2 : Vec Ideal S1x1000 .f32) (p : Fin 512) (q : Fin 1000) :
    k1_pay1 (F := Ideal) f ct c2 (ix2 p q)
      = Ideal.sqrt (max (((∑ d : Fin 2048, f (ix2 p d) * f (ix2 p d)) + c2 (ix2 0 q))
          - twoW * ∑ d : Fin 2048, f (ix2 p d) * ct (ix2 d q)) zeroW) * scaleW := by
  unfold k1_pay1
  simp only [shapeCast_self, mulf_apply, addf_apply, subf_apply, maximumf_apply, broadcast_apply, sqrt_at, Ideal.ofBits_def]
  refine assemble ?_ ?_ ?_
  · -- the row's sum of squares: the lane sum, recast as a column and broadcast along the row
    exact (ColumnLayout.broadcastTo_a1_ab_apply _ _ p q).trans
      ((ColumnLayout.shapeCast_a_a1_apply _ _ p 0).trans ((ColumnLayout.rowSum_apply _ _ _ _ _ p).trans rfl))
  · -- the squared norm of center q
    exact broadcastTo_1b_ab_apply c2 _ p q
  · -- the inner product
    exact product_at f ct p q

/-- The stored entry is the distance function of whole arrays, at row r and column q, when the block's row p is the
    feature matrix's row r and the other two operands are the whole transposed centers and squared norms. -/
theorem stored_eq_distances (f : Vec Ideal S512x2048 .bf16) (ct : Vec Ideal S2048x1000 .bf16) (c2 : Vec Ideal S1x1000 .f32)
    (Fm : Mat 4096 2048) (CT : Mat 2048 1000) (C2 : Mat 1 1000) (p : Fin 512) (q : Fin 1000) (r : Fin 4096)
    (hf : ∀ d : Fin 2048, f (ix2 p d) = Fm (ix2 r d)) (hct : ∀ d : Fin 2048, ct (ix2 d q) = CT (ix2 d q))
    (hc2 : c2 (ix2 0 q) = C2 (ix2 0 q)) :
    k1_pay1 (F := Ideal) f ct c2 (ix2 p q) = distances Fm CT C2 (ix2 r q) := by
  rw [stored_at, distances_apply]
  simp only [hf, hct, hc2]

end Cert.KernelIdeal.DistancePoint

end
-- ==== Proof.DistanceArray.lean ====
/-
  The second region's output array after its eight grid points.

  Point t stores rows 512·t … 512·t + 511 of the result; it reads the same rows of the feature matrix and the whole of
  the transposed centers and of the squared norms. So what point t writes back is block t of ONE whole-array function,
  the distance function of the arrays as the region finds them, and since the eight blocks tile the 4096 rows the array
  ends holding that function.
-/
import proofs.«168109_j69372311765581_1_alg».proof.Proof.Gen.KernelIdeal.Frame
import proofs.«168109_j69372311765581_1_alg».proof.Proof.DistancePoint

set_option maxRecDepth 16384

noncomputable section

namespace Cert.KernelIdeal.DistanceArray

open Cert.KernelIdeal Cert.KernelIdeal.Gen Cert.CenterDistance
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature rows and the output move with the point, the other two windows
    stay at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature rows point t reads, the transposed centers and the squared norms, typed as the body sees them. -/
abbrev featureBlock (c : Dev nD) (t : Fin cfg1.N) : Vec Ideal S512x2048 .bf16 := iblk1 V c 0 t
abbrev centersBlock (c : Dev nD) (t : Fin cfg1.N) : Vec Ideal S2048x1000 .bf16 := iblk1 V c 1 t
abbrev normsBlock (c : Dev nD) (t : Fin cfg1.N) : Vec Ideal S1x1000 .f32 := iblk1 V c 2 t

/-- Row p of point t's feature block is row 512·t + p of the feature matrix. -/
theorem featureBlock_at (c : Dev nD) (t : Fin cfg1.N) (p : Fin 512) (d : Fin 2048) (r : Fin 4096) (hr : r.val = 512 * t.val + p.val) :
    featureBlock V c t (ix2 p d) = (V c main_v9 : Mat 4096 2048) (ix2 r d) := by
  obtain ⟨e00, e01, -, -, -, -, -, -⟩ := index_facts t
  show V c main_v9 (((cfg1.win 0).blk t).view.emb (ix2 p d)) = V c main_v9 (ix2 r d)
  refine congrArg (V c main_v9) (funext fun a => Fin.ext ?_)
  match a with
  | ⟨0, _⟩ => show win1_0.index t (0 : Fin 2) * 512 + 1 * p.val = r.val; omega
  | ⟨1, _⟩ => show win1_0.index t (1 : Fin 2) * 2048 + 1 * d.val = d.val; omega

/-- The transposed centers are read whole. -/
theorem centersBlock_at (c : Dev nD) (t : Fin cfg1.N) (d : Fin 2048) (q : Fin 1000) :
    centersBlock V c t (ix2 d q) = (V c main_v5 : Mat 2048 1000) (ix2 d q) := by
  obtain ⟨-, -, e10, e11, -, -, -, -⟩ := index_facts t
  show V c main_v5 (((cfg1.win 1).blk t).view.emb (ix2 d q)) = V c main_v5 (ix2 d q)
  refine congrArg (V c main_v5) (funext fun a => Fin.ext ?_)
  match a with
  | ⟨0, _⟩ => show win1_1.index t (0 : Fin 2) * 2048 + 1 * d.val = d.val; omega
  | ⟨1, _⟩ => show win1_1.index t (1 : Fin 2) * 1000 + 1 * q.val = q.val; omega

/-- The squared norms are read whole. -/
theorem normsBlock_at (c : Dev nD) (t : Fin cfg1.N) (q : Fin 1000) :
    normsBlock V c t (ix2 0 q) = (V c main_v8 : Mat 1 1000) (ix2 0 q) := by
  obtain ⟨-, -, -, -, e20, e21, -, -⟩ := index_facts t
  show V c main_v8 (((cfg1.win 2).blk t).view.emb (ix2 0 q)) = V c main_v8 (ix2 0 q)
  refine congrArg (V c main_v8) (funext fun a => Fin.ext ?_)
  match a with
  | ⟨0, _⟩ => show win1_2.index t (0 : Fin 2) * 1 + 1 * 0 = 0; omega
  | ⟨1, _⟩ => show win1_2.index t (1 : Fin 2) * 1000 + 1 * q.val = q.val; omega

/-- WHAT POINT t WRITES BACK is block t of the distance function of the arrays the region finds. -/
theorem flushed_block (c : Dev nD) (t : Fin cfg1.N) :
    (dat1 V c).flushed 3 t
      = ((cfg1.win 3).blk t).view.read (Elt Ideal) (distances (V c main_v9) (V c main_v5) (V c main_v8)) := by
  show (cfg1.win 3).cut (grid1.coords t) ((dat1 V c).after 3 t) = _
  rw [after1_3]
  unfold out1_3
  rw [View.canon_unit_zero origin]
  simp only [View.ld_unit_zero (S := S512x2048) origin, View.ld_unit_zero (S := S2048x1000) origin, View.ld_unit_zero (S := S1x1000) origin]
  obtain ⟨-, -, -, -, -, -, e30, e31⟩ := index_facts t
  funext y
  obtain ⟨p, q, rfl⟩ : ∃ (p : Fin 512) (q : Fin 1000), y = ix2 p q := ⟨y 0, y 1, eq_ix2 y⟩
  have ht : t.val < 8 := t.isLt
  let r : Fin 4096 := ⟨512 * t.val + p.val, by have := p.isLt; omega⟩
  have hemb : ((cfg1.win 3).blk t).view.emb (ix2 p q) = (ix2 r q : S4096x1000.Idx) := by
    funext a; apply Fin.ext
    match a with
    | ⟨0, _⟩ => show win1_3.index t (0 : Fin 2) * 512 + 1 * p.val = 512 * t.val + p.val; omega
    | ⟨1, _⟩ => show win1_3.index t (1 : Fin 2) * 1000 + 1 * q.val = q.val; omega
  show k1_pay1 (F := Ideal) (featureBlock V c t) (centersBlock V c t) (normsBlock V c t) (ix2 p q)
    = distances (V c main_v9) (V c main_v5) (V c main_v8) (((cfg1.win 3).blk t).view.emb (ix2 p q))
  rw [hemb]
  exact DistancePoint.stored_eq_distances (featureBlock V c t) (centersBlock V c t) (normsBlock V c t)
    (V c main_v9) (V c main_v5) (V c main_v8) p q r
    (fun d => featureBlock_at V c t p d r rfl) (fun d => centersBlock_at V c t d q) (normsBlock_at V c t q)

/-- An index of the result is in point t's block iff each coordinate is in the block's range on its axis. -/
theorem mem_block (t : Fin cfg1.N) (i : S4096x1000.Idx) :
    i ∈ ((cfg1.win 3).blk t).view.set ↔ ∀ a : Fin 2, win1_3.index t a * S512x1000.size a ≤ (i a).val
      ∧ (i a).val < win1_3.index t a * S512x1000.size a + S512x1000.size a := by
  show i ∈ ((View.whole main_v10).slice (win1_3.rect t)).set ↔ _
  rw [View.set_slice_whole, Rect.mem_set_unit]
  exact Iff.rfl

/-- Every row of the result is in the block of the point that holds its row: row i is point i / 512's. -/
theorem covered (i : S4096x1000.Idx) :
    ∃ t : Fin cfg1.N, (cfg1.win 3).flush t = true ∧ i ∈ ((cfg1.win 3).blk t).view.set := by
  have hi0 : (i 0).val < 4096 := (i 0).isLt
  have hi1 : (i 1).val < 1000 := (i 1).isLt
  let t : Fin cfg1.N := ⟨(i 0).val / 512, by show (i 0).val / 512 < 8; omega⟩
  obtain ⟨-, -, -, -, -, -, e30, e31⟩ := index_facts t
  have htv : t.val = (i 0).val / 512 := rfl
  refine ⟨t, flush1_3 t, ?_⟩
  rw [mem_block]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1000 ≤ (i 1).val ∧ (i 1).val < win1_3.index t (1 : Fin 2) * 1000 + 1000
    omega

/-- THE RESULT ARRAY after the region: the distance function of the arrays as the region finds them. -/
theorem final (c : Dev nD) :
    (dat1 V c).arrAt 3 cfg1.N = distances (V c main_v9) (V c main_v5) (V c main_v8) :=
  (dat1 V c).arrAt_eq_of_cover 3 _ (fun t _ => flushed_block V c t) covered

end Cert.KernelIdeal.DistanceArray

end
-- ==== Proof.LibConcatFour.lean ====
/-
  Four equal-width pieces laid side by side, read at an entry.

  The concatenation along the second axis of four [A × K] arrays g₀ … g₃ into an [A × N] array reads, at row r and
  column d: g₀ at (r, j) when d = j, g₁ when d = K + j, g₂ when d = 2K + j, g₃ when d = 3K + j (j < K throughout).
-/
import Idealize.ShloMosaic.Lib.Pipeline.Value
import Idealize.ShloMosaic.Lib.ValueIdx

noncomputable section

namespace Idealize.ShloMosaic.ConcatFour

open Idealize.ShloMosaic Idealize.ShloMosaic.ValueIdx

variable {α : Type}

/-- Off the joined axis, (r, j) of a piece and (r, d) of the whole have the same coordinate. -/
theorem off_axis {A K N : ℕ} (r : Fin A) (d : Fin N) (j : Fin K) :
    ∀ b : Fin (⟨2, ![A, K]⟩ : Shape).rank, b.cast (rfl : (⟨2, ![A, K]⟩ : Shape).rank = (⟨2, ![A, N]⟩ : Shape).rank) ≠ (1 : Fin 2) →
      ((ix2 r j : (⟨2, ![A, K]⟩ : Shape).Idx) b).val = ((ix2 r d : (⟨2, ![A, N]⟩ : Shape).Idx) (b.cast rfl)).val := fun b hb => by
  match b with
  | ⟨0, _⟩ => rfl
  | ⟨1, _⟩ => exact absurd rfl hb

section
variable {A K N : ℕ} (g0 g1 g2 g3 : (⟨2, ![A, K]⟩ : Shape).Idx → α)
  (h : Shape.Concatenates ([(⟨⟨2, ![A, K]⟩, g0⟩ : (s : Shape) × (s.Idx → α)), ⟨⟨2, ![A, K]⟩, g1⟩, ⟨⟨2, ![A, K]⟩, g2⟩, ⟨⟨2, ![A, K]⟩, g3⟩].map (·.1))
    (⟨2, ![A, N]⟩ : Shape) 1)
  (r : Fin A) (d : Fin N) (j : Fin K)

/-- Columns 0 … K−1 are the first piece. -/
theorem concat4_first (hd : d.val = j.val) :
    concatenate (⟨2, ![A, N]⟩ : Shape) 1 [⟨⟨2, ![A, K]⟩, g0⟩, ⟨⟨2, ![A, K]⟩, g1⟩, ⟨⟨2, ![A, K]⟩, g2⟩, ⟨⟨2, ![A, K]⟩, g3⟩] h (ix2 r d)
      = g0 (ix2 r j) :=
  concatenate_apply_piece 1 _ h (ix2 r d) 0 (show 0 < 4 by omega) _ g0 rfl rfl 0 rfl (ix2 r j) (off_axis r d j)
    (by show 0 + j.val = d.val; omega)

/-- Columns K … 2K−1 are the second piece. -/
theorem concat4_second (hd : d.val = K + j.val) :
    concatenate (⟨2, ![A, N]⟩ : Shape) 1 [⟨⟨2, ![A, K]⟩, g0⟩, ⟨⟨2, ![A, K]⟩, g1⟩, ⟨⟨2, ![A, K]⟩, g2⟩, ⟨⟨2, ![A, K]⟩, g3⟩] h (ix2 r d)
      = g1 (ix2 r j) :=
  concatenate_apply_piece 1 _ h (ix2 r d) 1 (show 1 < 4 by omega) _ g1 rfl rfl K rfl (ix2 r j) (off_axis r d j)
    (by show K + j.val = d.val; omega)

/-- Columns 2K … 3K−1 are the third piece. -/
theorem concat4_third (hd : d.val = K + K + j.val) :
    concatenate (⟨2, ![A, N]⟩ : Shape) 1 [⟨⟨2, ![A, K]⟩, g0⟩, ⟨⟨2, ![A, K]⟩, g1⟩, ⟨⟨2, ![A, K]⟩, g2⟩, ⟨⟨2, ![A, K]⟩, g3⟩] h (ix2 r d)
      = g2 (ix2 r j) :=
  concatenate_apply_piece 1 _ h (ix2 r d) 2 (show 2 < 4 by omega) _ g2 rfl rfl (K + K) rfl (ix2 r j) (off_axis r d j)
    (by show K + K + j.val = d.val; omega)

/-- Columns 3K … 4K−1 are the fourth piece. -/
theorem concat4_fourth (hd : d.val = K + (K + K) + j.val) :
    concatenate (⟨2, ![A, N]⟩ : Shape) 1 [⟨⟨2, ![A, K]⟩, g0⟩, ⟨⟨2, ![A, K]⟩, g1⟩, ⟨⟨2, ![A, K]⟩, g2⟩, ⟨⟨2, ![A, K]⟩, g3⟩] h (ix2 r d)
      = g3 (ix2 r j) :=
  concatenate_apply_piece 1 _ h (ix2 r d) 3 (show 3 < 4 by omega) _ g3 rfl rfl (K + (K + K)) rfl (ix2 r j) (off_axis r d j)
    (by show K + (K + K) + j.val = d.val; omega)

end

end Idealize.ShloMosaic.ConcatFour

end
-- ==== Proof.FeaturePoint.lean ====
/-
  The first region's arithmetic at one entry of a block.

  From four [256 × 1024] blocks of input rows, the transposed weights ([1024 × 512]) and the biases (one row of 512),
  each of the four pieces the body joins is, at (p, j),
      max( Σ_k x[p,k] · wt[k,j] + b[0,j] , 0 ) :
  the matrix product into a zero accumulator is the sum over the contracted axis, the bias row is broadcast down the
  block, and the changes of float format are the identity on extended reals. The block the body stores is the four
  pieces side by side: at column d = n · 512 + j it is piece n at column j.
-/
import proofs.«168109_j69372311765581_1_alg».proof.Proof.Gen.KernelIdeal.Skeleton
import proofs.«168109_j69372311765581_1_alg».proof.Proof.Spec
import proofs.«168109_j69372311765581_1_alg».proof.Proof.LibMatmulAt
import proofs.«168109_j69372311765581_1_alg».proof.Proof.LibConcatFour
import Idealize.ShloMosaic.Lib.ValueLayout

noncomputable section

namespace Cert.KernelIdeal.FeaturePoint

open Cert.KernelIdeal Cert.KernelIdeal.Gen Idealize.ShloMosaic Idealize.ShloMosaic.ValueIdx Cert.CenterDistance

/-! The product's dimension numbers read the input block at (row, k) and the transposed weights at (k, column). -/

theorem lhs_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem rhs_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem rhs_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- Entry (p, j) of an input block's product with the transposed weights. -/
theorem product_at (x : FVec Ideal S256x1024 .bf16) (wt : FVec Ideal S1024x512 .bf16) (p : Fin 256) (j : Fin 512) :
    FloatOps.matmul dot_S256x1024_S1024x512_S256x512_1_0_0_1_n_n none x wt (constant (F := Ideal) S256x512 .f32 0x00000000#32) (ix2 p j)
      = ∑ k : Fin 1024, x (ix2 p k) * wt (ix2 k j) :=
  MatmulAt.matmul_zero_at dot_S256x1024_S1024x512_S256x512_1_0_0_1_n_n rfl rfl lhs_0 lhs_1 rhs_0 rhs_1 none x wt p j

/-- One branch on a block of 256 rows. -/
def blockBranch (x : Vec Ideal S256x1024 .f32) (wt : Vec Ideal S1024x512 .f32) (b : Vec Ideal S1x512 .f32) : S256x512.Idx → EReal :=
  fun i => max ((∑ k : Fin 1024, x (ix2 (i 0) k) * wt (ix2 k (i 1))) + b (ix2 0 (i 1))) zeroW

/-- The rectifier applied to equal pieces. -/
theorem rectified {A A' B B' : EReal} (hA : A = A') (hB : B = B') : max (A + B) zeroW = max (A' + B') zeroW := by
  rw [hA, hB]

/-- The first piece (the branch with the weights W_f). -/
theorem first_at (wt : Vec Ideal S1024x512 .f32) (b : Vec Ideal S1x512 .f32) (x : Vec Ideal S256x1024 .f32) (p : Fin 256) (j : Fin 512) :
    k0_pay4 (F := Ideal) wt b x (ix2 p j) = blockBranch x wt b (ix2 p j) := by
  unfold k0_pay4
  simp only [shapeCast_self, addf_apply, maximumf_apply, broadcast_apply, truncf_apply, Ideal.ofBits_def]
  exact rectified ((product_at _ _ p j).trans rfl) (broadcastTo_1b_ab_apply b _ p j)

/-- The second piece. -/
theorem second_at (wt : Vec Ideal S1024x512 .f32) (b : Vec Ideal S1x512 .f32) (x : Vec Ideal S256x1024 .f32) (p : Fin 256) (j : Fin 512) :
    k0_pay5 (F := Ideal) wt b x (ix2 p j) = blockBranch x wt b (ix2 p j) := by
  unfold k0_pay5 k0_pay2 k0_pay3
  simp only [shapeCast_self, addf_apply, maximumf_apply, broadcast_apply, truncf_apply, Ideal.ofBits_def]
  exact rectified ((product_at _ _ p j).trans rfl) (broadcastTo_1b_ab_apply b _ p j)

/-- The third piece. -/
theorem third_at (wt : Vec Ideal S1024x512 .f32) (b : Vec Ideal S1x512 .f32) (x : Vec Ideal S256x1024 .f32) (p : Fin 256) (j : Fin 512) :
    k0_pay6 (F := Ideal) wt b x (ix2 p j) = blockBranch x wt b (ix2 p j) := by
  unfold k0_pay6 k0_pay2 k0_pay3
  simp only [shapeCast_self, addf_apply, maximumf_apply, broadcast_apply, truncf_apply, Ideal.ofBits_def]
  exact rectified ((product_at _ _ p j).trans rfl) (broadcastTo_1b_ab_apply b _ p j)

/-- The fourth piece, which the body computes next to the join. -/
abbrev fourthPiece (wt : Vec Ideal S1024x512 .f32) (b : Vec Ideal S1x512 .f32) (x : Vec Ideal S256x1024 .f32) : FVec Ideal S256x512 .bf16 :=
  truncf .bf16 (maximumf (addf (matmul dot_S256x1024_S1024x512_S256x512_1_0_0_1_n_n none (k0_pay7 (F := Ideal) x) (k0_pay2 (F := Ideal) wt) (constant S256x512 .f32 0x00000000#32))
      (broadcastTo S256x512 (k0_pay3 (F := Ideal) b) broadcasts_S1x512_S256x512)) (broadcast S256x512 (Scalar.ofBits .f32 0x00000000#32))) bitsLt_bf16_f32

theorem fourth_at (wt : Vec Ideal S1024x512 .f32) (b : Vec Ideal S1x512 .f32) (x : Vec Ideal S256x1024 .f32) (p : Fin 256) (j : Fin 512) :
    fourthPiece wt b x (ix2 p j) = blockBranch x wt b (ix2 p j) := by
  unfold fourthPiece k0_pay7 k0_pay2 k0_pay3
  simp only [shapeCast_self, addf_apply, maximumf_apply, broadcast_apply, truncf_apply, Ideal.ofBits_def]
  exact rectified ((product_at _ _ p j).trans rfl) (broadcastTo_1b_ab_apply b _ p j)

/-- The stored block is the four pieces side by side. -/
theorem joined (wt : Vec Ideal S1024x512 .f32) (b : Vec Ideal S1x512 .f32) (x : Vec Ideal S256x1024 .f32)
    (g0 g1 g2 : FVec Ideal S256x512 .bf16) :
    k0_pay1 (F := Ideal) (k0_pay2 wt) (k0_pay3 b) g0 g1 g2 (k0_pay7 x) (constant S256x512 .f32 0x00000000#32)
      = concatenate S256x2048 1 [⟨S256x512, g0⟩, ⟨S256x512, g1⟩, ⟨S256x512, g2⟩, ⟨S256x512, fourthPiece wt b x⟩]
          concatenates_S256x512_S256x512_S256x512_S256x512_S256x2048_d1 := rfl

/-- What the body stores at (p, d) for d in the first 512 columns. -/
theorem stored_first (x0 x1 x2 x3 : Vec Ideal S256x1024 .f32) (wft : Vec Ideal S1024x512 .f32) (bf : Vec Ideal S1x512 .f32)
    (wrt : Vec Ideal S1024x512 .f32) (br : Vec Ideal S1x512 .f32) (p : Fin 256) (d : Fin 2048) (j : Fin 512)
    (hd : d.val = j.val) :
    k0_pay1 (F := Ideal) (k0_pay2 wrt) (k0_pay3 br) (k0_pay4 wft bf x0) (k0_pay5 wrt br x1) (k0_pay6 wrt br x2) (k0_pay7 x3)
        (constant S256x512 .f32 0x00000000#32) (ix2 p d)
      = blockBranch x0 wft bf (ix2 p j) := by
  rw [joined]
  exact (ConcatFour.concat4_first (A := 256) (K := 512) (N := 2048) (k0_pay4 (F := Ideal) wft bf x0) (k0_pay5 (F := Ideal) wrt br x1)
    (k0_pay6 (F := Ideal) wrt br x2) (fourthPiece wrt br x3) concatenates_S256x512_S256x512_S256x512_S256x512_S256x2048_d1 p d j hd).trans (first_at wft bf x0 p j)

/-- What the body stores at (p, d) for d in the second 512 columns. -/
theorem stored_second (x0 x1 x2 x3 : Vec Ideal S256x1024 .f32) (wft : Vec Ideal S1024x512 .f32) (bf : Vec Ideal S1x512 .f32)
    (wrt : Vec Ideal S1024x512 .f32) (br : Vec Ideal S1x512 .f32) (p : Fin 256) (d : Fin 2048) (j : Fin 512)
    (hd : d.val = 512 + j.val) :
    k0_pay1 (F := Ideal) (k0_pay2 wrt) (k0_pay3 br) (k0_pay4 wft bf x0) (k0_pay5 wrt br x1) (k0_pay6 wrt br x2) (k0_pay7 x3)
        (constant S256x512 .f32 0x00000000#32) (ix2 p d)
      = blockBranch x1 wrt br (ix2 p j) := by
  rw [joined]
  exact (ConcatFour.concat4_second (A := 256) (K := 512) (N := 2048) (k0_pay4 (F := Ideal) wft bf x0) (k0_pay5 (F := Ideal) wrt br x1)
    (k0_pay6 (F := Ideal) wrt br x2) (fourthPiece wrt br x3) concatenates_S256x512_S256x512_S256x512_S256x512_S256x2048_d1 p d j hd).trans (second_at wrt br x1 p j)

/-- What the body stores at (p, d) for d in the third 512 columns. -/
theorem stored_third (x0 x1 x2 x3 : Vec Ideal S256x1024 .f32) (wft : Vec Ideal S1024x512 .f32) (bf : Vec Ideal S1x512 .f32)
    (wrt : Vec Ideal S1024x512 .f32) (br : Vec Ideal S1x512 .f32) (p : Fin 256) (d : Fin 2048) (j : Fin 512)
    (hd : d.val = 512 + 512 + j.val) :
    k0_pay1 (F := Ideal) (k0_pay2 wrt) (k0_pay3 br) (k0_pay4 wft bf x0) (k0_pay5 wrt br x1) (k0_pay6 wrt br x2) (k0_pay7 x3)
        (constant S256x512 .f32 0x00000000#32) (ix2 p d)
      = blockBranch x2 wrt br (ix2 p j) := by
  rw [joined]
  exact (ConcatFour.concat4_third (A := 256) (K := 512) (N := 2048) (k0_pay4 (F := Ideal) wft bf x0) (k0_pay5 (F := Ideal) wrt br x1)
    (k0_pay6 (F := Ideal) wrt br x2) (fourthPiece wrt br x3) concatenates_S256x512_S256x512_S256x512_S256x512_S256x2048_d1 p d j hd).trans (third_at wrt br x2 p j)

/-- What the body stores at (p, d) for d in the last 512 columns. -/
theorem stored_fourth (x0 x1 x2 x3 : Vec Ideal S256x1024 .f32) (wft : Vec Ideal S1024x512 .f32) (bf : Vec Ideal S1x512 .f32)
    (wrt : Vec Ideal S1024x512 .f32) (br : Vec Ideal S1x512 .f32) (p : Fin 256) (d : Fin 2048) (j : Fin 512)
    (hd : d.val = 512 + (512 + 512) + j.val) :
    k0_pay1 (F := Ideal) (k0_pay2 wrt) (k0_pay3 br) (k0_pay4 wft bf x0) (k0_pay5 wrt br x1) (k0_pay6 wrt br x2) (k0_pay7 x3)
        (constant S256x512 .f32 0x00000000#32) (ix2 p d)
      = blockBranch x3 wrt br (ix2 p j) := by
  rw [joined]
  exact (ConcatFour.concat4_fourth (A := 256) (K := 512) (N := 2048) (k0_pay4 (F := Ideal) wft bf x0) (k0_pay5 (F := Ideal) wrt br x1)
    (k0_pay6 (F := Ideal) wrt br x2) (fourthPiece wrt br x3) concatenates_S256x512_S256x512_S256x512_S256x512_S256x2048_d1 p d j hd).trans (fourth_at wrt br x3 p j)

/-- A branch on a block is the branch on whole arrays, at row r, when the block's row p is the input's row r and the
    weights and the bias are the whole arrays. -/
theorem blockBranch_eq_branch (x : Vec Ideal S256x1024 .f32) (wt : Vec Ideal S1024x512 .f32) (b : Vec Ideal S1x512 .f32)
    (X : Mat 4096 1024) (WT : Mat 1024 512) (B : Mat 1 512) (p : Fin 256) (j : Fin 512) (r : Fin 4096)
    (hx : ∀ k : Fin 1024, x (ix2 p k) = X (ix2 r k)) (hw : ∀ k : Fin 1024, wt (ix2 k j) = WT (ix2 k j))
    (hb : b (ix2 0 j) = B (ix2 0 j)) :
    blockBranch x wt b (ix2 p j) = branch X WT B (ix2 r j) := by
  rw [branch_apply]
  show max ((∑ k : Fin 1024, x (ix2 p k) * wt (ix2 k j)) + b (ix2 0 j)) zeroW = _
  simp only [hx, hw, hb]

end Cert.KernelIdeal.FeaturePoint

end
-- ==== Proof.FeaturesAt.lean ====
/-
  The feature matrix read at an entry: column d of the four branches laid side by side is column d − 512·n of branch n,
  for d in the n-th range of 512 columns.
-/
import proofs.«168109_j69372311765581_1_alg».proof.Proof.Spec
import proofs.«168109_j69372311765581_1_alg».proof.Proof.LibConcatFour

noncomputable section

namespace Cert.CenterDistance

open Idealize.ShloMosaic Idealize.ShloMosaic.ValueIdx

/-- The feature matrix in its first 512 columns is the first branch. -/
theorem features_first (x0 x1 x2 x3 : Mat 4096 1024) (wft : Mat 1024 512) (bf : Mat 1 512) (wrt : Mat 1024 512) (br : Mat 1 512)
    (r : Fin 4096) (d : Fin 2048) (j : Fin 512) (hd : d.val = j.val) :
    features x0 x1 x2 x3 wft bf wrt br (ix2 r d) = branch x0 wft bf (ix2 r j) := by
  unfold features
  exact ConcatFour.concat4_first (A := 4096) (K := 512) (N := 2048) (branch x0 wft bf) (branch x1 wrt br) (branch x2 wrt br)
    (branch x3 wrt br) joins r d j hd

/-- The feature matrix in its second 512 columns is the second branch. -/
theorem features_second (x0 x1 x2 x3 : Mat 4096 1024) (wft : Mat 1024 512) (bf : Mat 1 512) (wrt : Mat 1024 512) (br : Mat 1 512)
    (r : Fin 4096) (d : Fin 2048) (j : Fin 512) (hd : d.val = 512 + j.val) :
    features x0 x1 x2 x3 wft bf wrt br (ix2 r d) = branch x1 wrt br (ix2 r j) := by
  unfold features
  exact ConcatFour.concat4_second (A := 4096) (K := 512) (N := 2048) (branch x0 wft bf) (branch x1 wrt br) (branch x2 wrt br)
    (branch x3 wrt br) joins r d j hd

/-- The feature matrix in its third 512 columns is the third branch. -/
theorem features_third (x0 x1 x2 x3 : Mat 4096 1024) (wft : Mat 1024 512) (bf : Mat 1 512) (wrt : Mat 1024 512) (br : Mat 1 512)
    (r : Fin 4096) (d : Fin 2048) (j : Fin 512) (hd : d.val = 512 + 512 + j.val) :
    features x0 x1 x2 x3 wft bf wrt br (ix2 r d) = branch x2 wrt br (ix2 r j) := by
  unfold features
  exact ConcatFour.concat4_third (A := 4096) (K := 512) (N := 2048) (branch x0 wft bf) (branch x1 wrt br) (branch x2 wrt br)
    (branch x3 wrt br) joins r d j hd

/-- The feature matrix in its fourth 512 columns is the fourth branch. -/
theorem features_fourth (x0 x1 x2 x3 : Mat 4096 1024) (wft : Mat 1024 512) (bf : Mat 1 512) (wrt : Mat 1024 512) (br : Mat 1 512)
    (r : Fin 4096) (d : Fin 2048) (j : Fin 512) (hd : d.val = 512 + (512 + 512) + j.val) :
    features x0 x1 x2 x3 wft bf wrt br (ix2 r d) = branch x3 wrt br (ix2 r j) := by
  unfold features
  exact ConcatFour.concat4_fourth (A := 4096) (K := 512) (N := 2048) (branch x0 wft bf) (branch x1 wrt br) (branch x2 wrt br)
    (branch x3 wrt br) joins r d j hd

end Cert.CenterDistance

end
-- ==== Proof.FeatureArray.lean ====
/-
  The first region's output array after its sixteen grid points.

  Point t stores rows 256·t … 256·t + 255 of the feature matrix; it reads the same rows of the four inputs and the
  whole of the transposed weights and the bias rows. So what point t writes back is block t of ONE whole-array
  function, the feature matrix of the arrays as the region finds them, and since the sixteen blocks tile the 4096
  rows the array ends holding that matrix.
-/
import proofs.«168109_j69372311765581_1_alg».proof.Proof.Gen.KernelIdeal.Frame
import proofs.«168109_j69372311765581_1_alg».proof.Proof.FeaturePoint
import proofs.«168109_j69372311765581_1_alg».proof.Proof.FeaturesAt

set_option maxRecDepth 16384

noncomputable section

namespace Cert.KernelIdeal.FeatureArray

open Cert.KernelIdeal Cert.KernelIdeal.Gen Cert.CenterDistance
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the four inputs and the output move with the point, the weights and the
    biases stay at the origin. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_8.index t (0 : Fin 2) = t.val ∧ win0_8.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The blocks point t reads, typed as the body sees them. -/
abbrev input0 (c : Dev nD) (t : Fin cfg0.N) : Vec Ideal S256x1024 .f32 := iblk0 V c 0 t
abbrev input1 (c : Dev nD) (t : Fin cfg0.N) : Vec Ideal S256x1024 .f32 := iblk0 V c 1 t
abbrev input2 (c : Dev nD) (t : Fin cfg0.N) : Vec Ideal S256x1024 .f32 := iblk0 V c 2 t
abbrev input3 (c : Dev nD) (t : Fin cfg0.N) : Vec Ideal S256x1024 .f32 := iblk0 V c 3 t
abbrev weightsF (c : Dev nD) (t : Fin cfg0.N) : Vec Ideal S1024x512 .f32 := iblk0 V c 4 t
abbrev biasF (c : Dev nD) (t : Fin cfg0.N) : Vec Ideal S1x512 .f32 := iblk0 V c 5 t
abbrev weightsR (c : Dev nD) (t : Fin cfg0.N) : Vec Ideal S1024x512 .f32 := iblk0 V c 6 t
abbrev biasR (c : Dev nD) (t : Fin cfg0.N) : Vec Ideal S1x512 .f32 := iblk0 V c 7 t

/-- Row p of point t's block of input 0 is row 256·t + p of that input. -/
theorem input0_at (c : Dev nD) (t : Fin cfg0.N) (p : Fin 256) (k : Fin 1024) (r : Fin 4096) (hr : r.val = 256 * t.val + p.val) :
    input0 V c t (ix2 p k) = (V c main_arg0 : Mat 4096 1024) (ix2 r k) := by
  have e := index_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- Row p of point t's block of input 1 is row 256·t + p of that input. -/
theorem input1_at (c : Dev nD) (t : Fin cfg0.N) (p : Fin 256) (k : Fin 1024) (r : Fin 4096) (hr : r.val = 256 * t.val + p.val) :
    input1 V c t (ix2 p k) = (V c main_arg1 : Mat 4096 1024) (ix2 r k) := by
  have e := index_facts t
  show V c main_arg1 (((cfg0.win 1).blk t).view.emb (ix2 p k)) = V c main_arg1 (ix2 r k)
  refine congrArg (V c main_arg1) (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-- Row p of point t's block of input 2 is row 256·t + p of that input. -/
theorem input2_at (c : Dev nD) (t : Fin cfg0.N) (p : Fin 256) (k : Fin 1024) (r : Fin 4096) (hr : r.val = 256 * t.val + p.val) :
    input2 V c t (ix2 p k) = (V c main_arg2 : Mat 4096 1024) (ix2 r k) := by
  have e := index_facts t
  show V c main_arg2 (((cfg0.win 2).blk t).view.emb (ix2 p k)) = V c main_arg2 (ix2 r k)
  refine congrArg (V c main_arg2) (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega

/-- Row p of point t's block of input 3 is row 256·t + p of that input. -/
theorem input3_at (c : Dev nD) (t : Fin cfg0.N) (p : Fin 256) (k : Fin 1024) (r : Fin 4096) (hr : r.val = 256 * t.val + p.val) :
    input3 V c t (ix2 p k) = (V c main_arg3 : Mat 4096 1024) (ix2 r k) := by
  have e := index_facts t
  show V c main_arg3 (((cfg0.win 3).blk t).view.emb (ix2 p k)) = V c main_arg3 (ix2 r k)
  refine congrArg (V c main_arg3) (funext fun a => Fin.ext ?_)
  match a with
  | ⟨0, _⟩ => show win0_3.index t (0 : Fin 2) * 256 + 1 * p.val = r.val; omega
  | ⟨1, _⟩ => show win0_3.index t (1 : Fin 2) * 1024 + 1 * k.val = k.val; omega

/-- The first branch's transposed weights are read whole. -/
theorem weightsF_at (c : Dev nD) (t : Fin cfg0.N) (k : Fin 1024) (j : Fin 512) :
    weightsF V c t (ix2 k j) = (V c main_v0 : Mat 1024 512) (ix2 k j) := by
  have e := index_facts t
  show V c main_v0 (((cfg0.win 4).blk t).view.emb (ix2 k j)) = V c main_v0 (ix2 k j)
  refine congrArg (V c main_v0) (funext fun a => Fin.ext ?_)
  match a with
  | ⟨0, _⟩ => show win0_4.index t (0 : Fin 2) * 1024 + 1 * k.val = k.val; omega
  | ⟨1, _⟩ => show win0_4.index t (1 : Fin 2) * 512 + 1 * j.val = j.val; omega

/-- The first branch's bias row is read whole. -/
theorem biasF_at (c : Dev nD) (t : Fin cfg0.N) (j : Fin 512) :
    biasF V c t (ix2 0 j) = (V c main_v2 : Mat 1 512) (ix2 0 j) := by
  have e := index_facts t
  show V c main_v2 (((cfg0.win 5).blk t).view.emb (ix2 0 j)) = V c main_v2 (ix2 0 j)
  refine congrArg (V c main_v2) (funext fun a => Fin.ext ?_)
  match a with
  | ⟨0, _⟩ => show win0_5.index t (0 : Fin 2) * 1 + 1 * 0 = 0; omega
  | ⟨1, _⟩ => show win0_5.index t (1 : Fin 2) * 512 + 1 * j.val = j.val; omega

/-- The other branches' transposed weights are read whole. -/
theorem weightsR_at (c : Dev nD) (t : Fin cfg0.N) (k : Fin 1024) (j : Fin 512) :
    weightsR V c t (ix2 k j) = (V c main_v1 : Mat 1024 512) (ix2 k j) := by
  have e := index_facts t
  show V c main_v1 (((cfg0.win 6).blk t).view.emb (ix2 k j)) = V c main_v1 (ix2 k j)
  refine congrArg (V c main_v1) (funext fun a => Fin.ext ?_)
  match a with
  | ⟨0, _⟩ => show win0_6.index t (0 : Fin 2) * 1024 + 1 * k.val = k.val; omega
  | ⟨1, _⟩ => show win0_6.index t (1 : Fin 2) * 512 + 1 * j.val = j.val; omega

/-- The other branches' bias row is read whole. -/
theorem biasR_at (c : Dev nD) (t : Fin cfg0.N) (j : Fin 512) :
    biasR V c t (ix2 0 j) = (V c main_v3 : Mat 1 512) (ix2 0 j) := by
  have e := index_facts t
  show V c main_v3 (((cfg0.win 7).blk t).view.emb (ix2 0 j)) = V c main_v3 (ix2 0 j)
  refine congrArg (V c main_v3) (funext fun a => Fin.ext ?_)
  match a with
  | ⟨0, _⟩ => show win0_7.index t (0 : Fin 2) * 1 + 1 * 0 = 0; omega
  | ⟨1, _⟩ => show win0_7.index t (1 : Fin 2) * 512 + 1 * j.val = j.val; omega

/-- WHAT POINT t WRITES BACK is block t of the feature matrix of the arrays the region finds. -/
theorem flushed_block (c : Dev nD) (t : Fin cfg0.N) :
    (dat0 V c).flushed 8 t = ((cfg0.win 8).blk t).view.read (Elt Ideal) (features (V c main_arg0) (V c main_arg1) (V c main_arg2) (V c main_arg3) (V c main_v0) (V c main_v2) (V c main_v1) (V c main_v3)) := by
  show (cfg0.win 8).cut (grid0.coords t) ((dat0 V c).after 8 t) = _
  rw [after0_8]
  unfold out0_8
  rw [View.canon_unit_zero origin]
  simp only [View.ld_unit_zero (S := S256x1024) origin, View.ld_unit_zero (S := S1024x512) origin, View.ld_unit_zero (S := S1x512) origin]
  have e := index_facts t
  funext y
  obtain ⟨p, d, rfl⟩ : ∃ (p : Fin 256) (d : Fin 2048), y = ix2 p d := ⟨y 0, y 1, eq_ix2 y⟩
  have ht : t.val < 16 := t.isLt
  have hp : p.val < 256 := p.isLt
  have hd : d.val < 2048 := d.isLt
  let r : Fin 4096 := ⟨256 * t.val + p.val, by omega⟩
  have hemb : ((cfg0.win 8).blk t).view.emb (ix2 p d) = (ix2 r d : S4096x2048.Idx) := by
    funext a; apply Fin.ext
    match a with
    | ⟨0, _⟩ => show win0_8.index t (0 : Fin 2) * 256 + 1 * p.val = 256 * t.val + p.val; omega
    | ⟨1, _⟩ => show win0_8.index t (1 : Fin 2) * 2048 + 1 * d.val = d.val; omega
  show k0_pay1 (F := Ideal) (k0_pay2 (weightsR V c t)) (k0_pay3 (biasR V c t)) (k0_pay4 (weightsF V c t) (biasF V c t) (input0 V c t))
      (k0_pay5 (weightsR V c t) (biasR V c t) (input1 V c t)) (k0_pay6 (weightsR V c t) (biasR V c t) (input2 V c t))
      (k0_pay7 (input3 V c t)) (constant S256x512 .f32 0x00000000#32) (ix2 p d)
    = features (V c main_arg0) (V c main_arg1) (V c main_arg2) (V c main_arg3) (V c main_v0) (V c main_v2) (V c main_v1) (V c main_v3) (((cfg0.win 8).blk t).view.emb (ix2 p d))
  rw [hemb]
  by_cases h1 : d.val < 512
  ·
    exact (FeaturePoint.stored_first (input0 V c t) (input1 V c t) (input2 V c t) (input3 V c t) (weightsF V c t) (biasF V c t)
        (weightsR V c t) (biasR V c t) p d ⟨d.val, h1⟩ rfl).trans
      ((FeaturePoint.blockBranch_eq_branch (input0 V c t) (weightsF V c t) (biasF V c t) (V c main_arg0) (V c main_v0) (V c main_v2) p ⟨d.val, h1⟩ r
          (fun k => input0_at V c t p k r rfl) (fun k => weightsF_at V c t k _) (biasF_at V c t _)).trans
        (features_first (V c main_arg0) (V c main_arg1) (V c main_arg2) (V c main_arg3) (V c main_v0) (V c main_v2) (V c main_v1) (V c main_v3)
          r d ⟨d.val, h1⟩ rfl).symm)
  by_cases h2 : d.val < 1024
  ·
    exact (FeaturePoint.stored_second (input0 V c t) (input1 V c t) (input2 V c t) (input3 V c t) (weightsF V c t) (biasF V c t)
        (weightsR V c t) (biasR V c t) p d ⟨d.val - 512, by omega⟩ (by show d.val = 512 + (d.val - 512); omega)).trans
      ((FeaturePoint.blockBranch_eq_branch (input1 V c t) (weightsR V c t) (biasR V c t) (V c main_arg1) (V c main_v1) (V c main_v3) p ⟨d.val - 512, by omega⟩ r
          (fun k => input1_at V c t p k r rfl) (fun k => weightsR_at V c t k _) (biasR_at V c t _)).trans
        (features_second (V c main_arg0) (V c main_arg1) (V c main_arg2) (V c main_arg3) (V c main_v0) (V c main_v2) (V c main_v1) (V c main_v3)
          r d ⟨d.val - 512, by omega⟩ (by show d.val = 512 + (d.val - 512); omega)).symm)
  by_cases h3 : d.val < 1536
  ·
    exact (FeaturePoint.stored_third (input0 V c t) (input1 V c t) (input2 V c t) (input3 V c t) (weightsF V c t) (biasF V c t)
        (weightsR V c t) (biasR V c t) p d ⟨d.val - 1024, by omega⟩ (by show d.val = 512 + 512 + (d.val - 1024); omega)).trans
      ((FeaturePoint.blockBranch_eq_branch (input2 V c t) (weightsR V c t) (biasR V c t) (V c main_arg2) (V c main_v1) (V c main_v3) p ⟨d.val - 1024, by omega⟩ r
          (fun k => input2_at V c t p k r rfl) (fun k => weightsR_at V c t k _) (biasR_at V c t _)).trans
        (features_third (V c main_arg0) (V c main_arg1) (V c main_arg2) (V c main_arg3) (V c main_v0) (V c main_v2) (V c main_v1) (V c main_v3)
          r d ⟨d.val - 1024, by omega⟩ (by show d.val = 512 + 512 + (d.val - 1024); omega)).symm)
  ·
    exact (FeaturePoint.stored_fourth (input0 V c t) (input1 V c t) (input2 V c t) (input3 V c t) (weightsF V c t) (biasF V c t)
        (weightsR V c t) (biasR V c t) p d ⟨d.val - 1536, by omega⟩ (by show d.val = 512 + (512 + 512) + (d.val - 1536); omega)).trans
      ((FeaturePoint.blockBranch_eq_branch (input3 V c t) (weightsR V c t) (biasR V c t) (V c main_arg3) (V c main_v1) (V c main_v3) p ⟨d.val - 1536, by omega⟩ r
          (fun k => input3_at V c t p k r rfl) (fun k => weightsR_at V c t k _) (biasR_at V c t _)).trans
        (features_fourth (V c main_arg0) (V c main_arg1) (V c main_arg2) (V c main_arg3) (V c main_v0) (V c main_v2) (V c main_v1) (V c main_v3)
          r d ⟨d.val - 1536, by omega⟩ (by show d.val = 512 + (512 + 512) + (d.val - 1536); omega)).symm)

/-- An index of the feature matrix is in point t's block iff each coordinate is in the block's range on its axis. -/
theorem mem_block (t : Fin cfg0.N) (i : S4096x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v9).slice (win0_8.rect t)).set ↔ _
  rw [View.set_slice_whole, Rect.mem_set_unit]
  exact Iff.rfl

/-- Every row of the feature matrix is in the block of the point that holds its row: row i is point i / 256's. -/
theorem covered (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  let t : Fin cfg0.N := ⟨(i 0).val / 256, by show (i 0).val / 256 < 16; omega⟩
  have e := index_facts t
  have htv : t.val = (i 0).val / 256 := rfl
  refine ⟨t, flush0_8 t, ?_⟩
  rw [mem_block]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 2048 ≤ (i 1).val ∧ (i 1).val < win0_8.index t (1 : Fin 2) * 2048 + 2048
    omega

/-- THE FEATURE MATRIX after the region: the four branches of the arrays as the region finds them, side by side. -/
theorem final (c : Dev nD) :
    (dat0 V c).arrAt 8 cfg0.N = features (V c main_arg0) (V c main_arg1) (V c main_arg2) (V c main_arg3) (V c main_v0) (V c main_v2) (V c main_v1) (V c main_v3) :=
  (dat0 V c).arrAt_eq_of_cover 8 _ (fun t _ => flushed_block V c t) covered

end Cert.KernelIdeal.FeatureArray

end
-- ==== Proof.KernelHost.lean ====
/-
  What the first region finds in the buffers the host operations wrote, as functions of the launch memory:
  the transposes of the two weight matrices and of the centers, the two biases as one-row matrices, the centers'
  squared norms as a one-row matrix (the host's sum starts from the zero word, which adds nothing), and the four
  inputs untouched.
-/
import proofs.«168109_j69372311765581_1_alg».proof.Proof.Gen.KernelIdeal.Frame
import proofs.«168109_j69372311765581_1_alg».proof.Proof.Spec
import proofs.«168109_j69372311765581_1_alg».proof.Proof.LibColumnLayout
import Idealize.ShloMosaic.Lib.StableHlo.Run
import Idealize.ShloMosaic.Lib.ValueLayout

set_option maxRecDepth 16384

noncomputable section

namespace Cert.KernelIdeal.HostSide

open Cert.KernelIdeal Cert.KernelIdeal.Gen Cert.CenterDistance
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Input 0 is as launched. -/
theorem input0 (c : Dev nD) : W1 m ρ c (Proc.devRef .tc main_arg0) = m ((c : Thread nD τ).loc main_arg0) := by
  dsimp only [W1, hostOps0]
  after_results
/-- Input 1 is as launched. -/
theorem input1 (c : Dev nD) : W1 m ρ c (Proc.devRef .tc main_arg1) = m ((c : Thread nD τ).loc main_arg1) := by
  dsimp only [W1, hostOps0]
  after_results
/-- Input 2 is as launched. -/
theorem input2 (c : Dev nD) : W1 m ρ c (Proc.devRef .tc main_arg2) = m ((c : Thread nD τ).loc main_arg2) := by
  dsimp only [W1, hostOps0]
  after_results
/-- Input 3 is as launched. -/
theorem input3 (c : Dev nD) : W1 m ρ c (Proc.devRef .tc main_arg3) = m ((c : Thread nD τ).loc main_arg3) := by
  dsimp only [W1, hostOps0]
  after_results

/-- The first branch's weights, transposed. -/
theorem weightsF (c : Dev nD) :
    (W1 m ρ c (Proc.devRef .tc main_v0) : Mat 1024 512) = tr (m ((c : Thread nD τ).loc main_arg4)) := by
  have e : (W1 m ρ c (Proc.devRef .tc main_v0) : Mat 1024 512)
      = transpose S1024x512 [1, 0] (m ((c : Thread nD τ).loc main_arg4)) transposes_S512x1024_S1024x512_1_0 := by
    dsimp only [W1, hostOps0]; after_results
  refine e.trans (funext fun i => ?_)
  obtain ⟨k, j, rfl⟩ : ∃ (k : Fin 1024) (j : Fin 512), i = ix2 k j := ⟨i 0, i 1, eq_ix2 i⟩
  exact (transpose_ix2_apply _ _ k j).trans rfl

/-- The other branches' weights, transposed. -/
theorem weightsR (c : Dev nD) :
    (W1 m ρ c (Proc.devRef .tc main_v1) : Mat 1024 512) = tr (m ((c : Thread nD τ).loc main_arg6)) := by
  have e : (W1 m ρ c (Proc.devRef .tc main_v1) : Mat 1024 512)
      = transpose S1024x512 [1, 0] (m ((c : Thread nD τ).loc main_arg6)) transposes_S512x1024_S1024x512_1_0 := by
    dsimp only [W1, hostOps0]; after_results
  refine e.trans (funext fun i => ?_)
  obtain ⟨k, j, rfl⟩ : ∃ (k : Fin 1024) (j : Fin 512), i = ix2 k j := ⟨i 0, i 1, eq_ix2 i⟩
  exact (transpose_ix2_apply _ _ k j).trans rfl

/-- The first branch's bias as a one-row matrix. -/
theorem biasF (c : Dev nD) :
    (W1 m ρ c (Proc.devRef .tc main_v2) : Mat 1 512) = asRow (m ((c : Thread nD τ).loc main_arg5)) := by
  have e : (W1 m ρ c (Proc.devRef .tc main_v2) : Mat 1 512)
      = shapeCast S1x512 (m ((c : Thread nD τ).loc main_arg5)) shapeCasts_S512_S1x512 := by
    dsimp only [W1, hostOps0]; after_results; rfl
  refine e.trans (funext fun i => ?_)
  obtain ⟨u, j, rfl⟩ : ∃ (u : Fin 1) (j : Fin 512), i = ix2 u j := ⟨i 0, i 1, eq_ix2 i⟩
  exact (shapeCast_a_1a_apply _ _ u j).trans rfl

/-- The other branches' bias as a one-row matrix. -/
theorem biasR (c : Dev nD) :
    (W1 m ρ c (Proc.devRef .tc main_v3) : Mat 1 512) = asRow (m ((c : Thread nD τ).loc main_arg7)) := by
  have e : (W1 m ρ c (Proc.devRef .tc main_v3) : Mat 1 512)
      = shapeCast S1x512 (m ((c : Thread nD τ).loc main_arg7)) shapeCasts_S512_S1x512 := by
    dsimp only [W1, hostOps0]; after_results; rfl
  refine e.trans (funext fun i => ?_)
  obtain ⟨u, j, rfl⟩ : ∃ (u : Fin 1) (j : Fin 512), i = ix2 u j := ⟨i 0, i 1, eq_ix2 i⟩
  exact (shapeCast_a_1a_apply _ _ u j).trans rfl

/-- The centers, transposed (the change of float format is the identity). -/
theorem centersT (c : Dev nD) :
    (W1 m ρ c (Proc.devRef .tc main_v5) : Mat 2048 1000) = tr (m ((c : Thread nD τ).loc main_arg8)) := by
  have e : (W1 m ρ c (Proc.devRef .tc main_v5) : Mat 2048 1000)
      = (transpose S2048x1000 [1, 0] (m ((c : Thread nD τ).loc main_arg8)) transposes_S1000x2048_S2048x1000_1_0 : Mat 2048 1000) := by
    dsimp only [W1, hostOps0]; after_results <;> rfl
  refine e.trans (funext fun i => ?_)
  obtain ⟨d, q, rfl⟩ : ∃ (d : Fin 2048) (q : Fin 1000), i = ix2 d q := ⟨i 0, i 1, eq_ix2 i⟩
  exact (transpose_ix2_apply (m ((c : Thread nD τ).loc main_arg8)) transposes_S1000x2048_S2048x1000_1_0 d q).trans rfl

/-- The centers' squared norms as a one-row matrix. -/
theorem norms (c : Dev nD) :
    (W1 m ρ c (Proc.devRef .tc main_v8) : Mat 1 1000) = asRow (sqNorms (m ((c : Thread nD τ).loc main_arg8))) := by
  have e : (W1 m ρ c (Proc.devRef .tc main_v8) : Mat 1 1000)
      = shapeCast S1x1000 (Host.reduceAdd (mulf (m ((c : Thread nD τ).loc main_arg8)) (m ((c : Thread nD τ).loc main_arg8)))
          (constant (F := Ideal) S_ .f32 0x00000000#32) reducesTo_S1000x2048_S1000_d1 h_S_) shapeCasts_S1000_S1x1000 := by
    dsimp only [W1, hostOps0]; after_results; rfl
  refine e.trans (funext fun i => ?_)
  obtain ⟨u, q, rfl⟩ : ∃ (u : Fin 1) (q : Fin 1000), i = ix2 u q := ⟨i 0, i 1, eq_ix2 i⟩
  refine (shapeCast_a_1a_apply _ _ u q).trans ?_
  simp only [Host.reduceAdd, Ideal.hostReduceAdd_def]
  rw [ColumnLayout.hostRowSum_apply reducesTo_S1000x2048_S1000_d1 (by decide)]
  exact (congrArg (· + ∑ d : Fin 2048, mulf (m ((c : Thread nD τ).loc main_arg8)) (m ((c : Thread nD τ).loc main_arg8)) (ix2 q d))
    Ideal.ofBits_zero_f32).trans (zero_add _)

end Cert.KernelIdeal.HostSide

end
-- ==== Proof.KernelValue.lean ====
/-
  The idealized kernel's result as a function of its nine argument arrays.

  The second region leaves in the result array the distance function of what it finds: the feature matrix the first
  region left (the four branches of the inputs as launched, against the transposed weights and bias rows the host
  operations wrote), the transposed centers and the centers' squared norms (which the first region does not touch).
  Composed, that is `result` of the launch memory's argument arrays.
-/
import proofs.«168109_j69372311765581_1_alg».proof.Proof.KernelIdealRun
import proofs.«168109_j69372311765581_1_alg».proof.Proof.DistanceArray
import proofs.«168109_j69372311765581_1_alg».proof.Proof.FeatureArray
import proofs.«168109_j69372311765581_1_alg».proof.Proof.KernelHost

set_option maxRecDepth 16384

noncomputable section

namespace Cert.KernelIdeal.ResultValue

open Cert.KernelIdeal Cert.KernelIdeal.Gen Cert.CenterDistance
open Idealize.ShloMosaic Idealize.ShloMosaic.TcCoe Idealize.ShloMosaic.ValueIdx Idealize.SL.Sem

variable (m : (ℓ : Loc nD τ sig) → Buf (Elt Ideal) ℓ) (ρ : Dev nD → PrngReg)

/-- The feature matrix of equal operands. -/
theorem features_congr {a0 b0 a1 b1 a2 b2 a3 b3 : Mat 4096 1024} {wf wf' wr wr' : Mat 1024 512} {bf bf' br br' : Mat 1 512}
    (h0 : a0 = b0) (h1 : a1 = b1) (h2 : a2 = b2) (h3 : a3 = b3) (hwf : wf = wf') (hbf : bf = bf') (hwr : wr = wr') (hbr : br = br') :
    features a0 a1 a2 a3 wf bf wr br = features b0 b1 b2 b3 wf' bf' wr' br' := by
  rw [h0, h1, h2, h3, hwf, hbf, hwr, hbr]

/-- The distance function of equal operands. -/
theorem distances_congr {f f' : Mat 4096 2048} {ct ct' : Mat 2048 1000} {c2 c2' : Mat 1 1000}
    (hf : f = f') (hct : ct = ct') (hc2 : c2 = c2') : distances f ct c2 = distances f' ct' c2' := by
  rw [hf, hct, hc2]

/-- What the first region leaves in the feature array, of the launch memory. -/
theorem features_array (c : Dev nD) :
    (W2 m ρ c (Proc.devRef .tc main_v9) : Mat 4096 2048)
      = features (m ((c : Thread nD τ).loc main_arg0)) (m ((c : Thread nD τ).loc main_arg1)) (m ((c : Thread nD τ).loc main_arg2)) (m ((c : Thread nD τ).loc main_arg3))
          (tr (m ((c : Thread nD τ).loc main_arg4))) (asRow (m ((c : Thread nD τ).loc main_arg5))) (tr (m ((c : Thread nD τ).loc main_arg6))) (asRow (m ((c : Thread nD τ).loc main_arg7))) :=
  (W2_arr m ρ c 8).trans ((FeatureArray.final (V1 m ρ) c).trans
    (features_congr (HostSide.input0 m ρ c) (HostSide.input1 m ρ c) (HostSide.input2 m ρ c) (HostSide.input3 m ρ c)
      (HostSide.weightsF m ρ c) (HostSide.biasF m ρ c) (HostSide.weightsR m ρ c) (HostSide.biasR m ρ c)))

/-- What the second region leaves in the result array, of the launch memory. -/
theorem result_array (c : Dev nD) :
    (W3 m ρ c (Proc.devRef .tc main_v10) : Mat 4096 1000)
      = result (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) :=
  (W3_arr m ρ c 3).trans ((DistanceArray.final (V2 m ρ) c).trans
    (distances_congr (features_array m ρ c)
      ((W2_of_ne m ρ c main_v5 (by decide)).trans (HostSide.centersT m ρ c))
      ((W2_of_ne m ρ c main_v8 (by decide)).trans (HostSide.norms m ρ c))))

/-- Every weakly fair execution of the idealized kernel terminates without a fault with the result array at `result`
    of the argument arrays, and the argument arrays as launched. -/
theorem run : θ_run defs (onTc (τ := τ) (main (F := Ideal))) ⟨m, fun _ => 0, ρ⟩ (fun r => ∀ c : Dev nD,
      r.2.mem ((c.tc : Thread nD τ).loc main_v10)
        = result (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_array m ρ c), (h c).2⟩) (RunKept.run m ρ)

end Cert.KernelIdeal.ResultValue

end
-- ==== Proof.RefValue.lean ====
/-
  The idealized reference's result as a function of its nine argument arrays.

  Stage by stage: each of the four linear maps followed by the rectifier (a product with a transposed weight matrix read
  as a sum over the 1024 inputs, the bias broadcast down the rows, the maximum with the zero word) is one `branch`; the
  concatenation of the four is the feature matrix; and the tail — the rows' sums of squares and the centers' squared
  norms (host sums that start from the zero word, which adds nothing), their sum, the product with the transposed
  centers doubled and subtracted, the rectifier, the square root and the scale — is the distance function.
-/
import proofs.«168109_j69372311765581_1_alg».proof.Proof.Gen.ReferenceIdeal.Read
import proofs.«168109_j69372311765581_1_alg».proof.Proof.Spec

set_option maxRecDepth 16384

noncomputable section

namespace Cert.ReferenceIdeal.ResultValue

open Cert.ReferenceIdeal Cert.ReferenceIdeal.Gen Cert.CenterDistance
open Idealize.ShloMosaic Idealize.ShloMosaic.TcCoe Idealize.ShloMosaic.ValueIdx Idealize.SL.Sem

/-- The first rectified linear stage is the first branch. -/
theorem stage_branch0 (x : (⟨S4096x1024, .f32⟩ : BufTy).Contents (Elt Ideal)) (w : (⟨S512x1024, .f32⟩ : BufTy).Contents (Elt Ideal)) (b : (⟨S512, .f32⟩ : BufTy).Contents (Elt Ideal)) :
    Read.val_main_v5 (F := Ideal) x w b = branch x (tr w) (asRow b) := by
  funext i
  obtain ⟨r, j, rfl⟩ : ∃ (r : Fin 4096) (j : Fin 512), i = ix2 r j := ⟨i 0, i 1, eq_ix2 i⟩
  have e1 : ∀ k : Fin 1024, Read.lidx_main_v1 (ix2 r j) k = (ix2 r k : S4096x1024.Idx) := fun k => funext fun a => Fin.ext (by
    match a with | ⟨0, _⟩ => rfl | ⟨1, _⟩ => rfl)
  have e2 : ∀ k : Fin 1024, Read.idx_main_v0 (Read.ridx_main_v1 (ix2 r j) k) = (ix2 j k : S512x1024.Idx) := fun k => funext fun a => Fin.ext (by
    match a with | ⟨0, _⟩ => rfl | ⟨1, _⟩ => rfl)
  have e3 : Read.idx_main_v2 (Read.idx_main_v3 (ix2 r j)) = (ix1 j : S512.Idx) := funext fun a => Fin.ext (by
    match a with | ⟨0, _⟩ => rfl)
  rw [Read.val_main_v5_apply, Read.val_main_v4_apply, Read.val_main_v1_apply, Read.val_main_v3_apply, Read.val_main_v2_apply,
    Read.val_main_call0_v0_apply, Read.val_main_call0_cst_apply, branch_apply]
  simp only [Read.val_main_v0_apply, e1, e2, e3]
  rfl

/-- The second rectified linear stage is the second branch. -/
theorem stage_branch1 (x : (⟨S4096x1024, .f32⟩ : BufTy).Contents (Elt Ideal)) (w : (⟨S512x1024, .f32⟩ : BufTy).Contents (Elt Ideal)) (b : (⟨S512, .f32⟩ : BufTy).Contents (Elt Ideal)) :
    Read.val_main_v11 (F := Ideal) x w b = branch x (tr w) (asRow b) := by
  funext i
  obtain ⟨r, j, rfl⟩ : ∃ (r : Fin 4096) (j : Fin 512), i = ix2 r j := ⟨i 0, i 1, eq_ix2 i⟩
  have e1 : ∀ k : Fin 1024, Read.lidx_main_v7 (ix2 r j) k = (ix2 r k : S4096x1024.Idx) := fun k => funext fun a => Fin.ext (by
    match a with | ⟨0, _⟩ => rfl | ⟨1, _⟩ => rfl)
  have e2 : ∀ k : Fin 1024, Read.idx_main_v6 (Read.ridx_main_v7 (ix2 r j) k) = (ix2 j k : S512x1024.Idx) := fun k => funext fun a => Fin.ext (by
    match a with | ⟨0, _⟩ => rfl | ⟨1, _⟩ => rfl)
  have e3 : Read.idx_main_v8 (Read.idx_main_v9 (ix2 r j)) = (ix1 j : S512.Idx) := funext fun a => Fin.ext (by
    match a with | ⟨0, _⟩ => rfl)
  rw [Read.val_main_v11_apply, Read.val_main_v10_apply, Read.val_main_v7_apply, Read.val_main_v9_apply, Read.val_main_v8_apply,
    Read.val_main_call1_v0_apply, Read.val_main_call1_cst_apply, branch_apply]
  simp only [Read.val_main_v6_apply, e1, e2, e3]
  rfl

/-- The third rectified linear stage is the third branch. -/
theorem stage_branch2 (x : (⟨S4096x1024, .f32⟩ : BufTy).Contents (Elt Ideal)) (w : (⟨S512x1024, .f32⟩ : BufTy).Contents (Elt Ideal)) (b : (⟨S512, .f32⟩ : BufTy).Contents (Elt Ideal)) :
    Read.val_main_v17 (F := Ideal) x w b = branch x (tr w) (asRow b) := by
  funext i
  obtain ⟨r, j, rfl⟩ : ∃ (r : Fin 4096) (j : Fin 512), i = ix2 r j := ⟨i 0, i 1, eq_ix2 i⟩
  have e1 : ∀ k : Fin 1024, Read.lidx_main_v13 (ix2 r j) k = (ix2 r k : S4096x1024.Idx) := fun k => funext fun a => Fin.ext (by
    match a with | ⟨0, _⟩ => rfl | ⟨1, _⟩ => rfl)
  have e2 : ∀ k : Fin 1024, Read.idx_main_v12 (Read.ridx_main_v13 (ix2 r j) k) = (ix2 j k : S512x1024.Idx) := fun k => funext fun a => Fin.ext (by
    match a with | ⟨0, _⟩ => rfl | ⟨1, _⟩ => rfl)
  have e3 : Read.idx_main_v14 (Read.idx_main_v15 (ix2 r j)) = (ix1 j : S512.Idx) := funext fun a => Fin.ext (by
    match a with | ⟨0, _⟩ => rfl)
  rw [Read.val_main_v17_apply, Read.val_main_v16_apply, Read.val_main_v13_apply, Read.val_main_v15_apply, Read.val_main_v14_apply,
    Read.val_main_call2_v0_apply, Read.val_main_call2_cst_apply, branch_apply]
  simp only [Read.val_main_v12_apply, e1, e2, e3]
  rfl

/-- The fourth rectified linear stage is the fourth branch. -/
theorem stage_branch3 (x : (⟨S4096x1024, .f32⟩ : BufTy).Contents (Elt Ideal)) (w : (⟨S512x1024, .f32⟩ : BufTy).Contents (Elt Ideal)) (b : (⟨S512, .f32⟩ : BufTy).Contents (Elt Ideal)) :
    Read.val_main_v23 (F := Ideal) x w b = branch x (tr w) (asRow b) := by
  funext i
  obtain ⟨r, j, rfl⟩ : ∃ (r : Fin 4096) (j : Fin 512), i = ix2 r j := ⟨i 0, i 1, eq_ix2 i⟩
  have e1 : ∀ k : Fin 1024, Read.lidx_main_v19 (ix2 r j) k = (ix2 r k : S4096x1024.Idx) := fun k => funext fun a => Fin.ext (by
    match a with | ⟨0, _⟩ => rfl | ⟨1, _⟩ => rfl)
  have e2 : ∀ k : Fin 1024, Read.idx_main_v18 (Read.ridx_main_v19 (ix2 r j) k) = (ix2 j k : S512x1024.Idx) := fun k => funext fun a => Fin.ext (by
    match a with | ⟨0, _⟩ => rfl | ⟨1, _⟩ => rfl)
  have e3 : Read.idx_main_v20 (Read.idx_main_v21 (ix2 r j)) = (ix1 j : S512.Idx) := funext fun a => Fin.ext (by
    match a with | ⟨0, _⟩ => rfl)
  rw [Read.val_main_v23_apply, Read.val_main_v22_apply, Read.val_main_v19_apply, Read.val_main_v21_apply, Read.val_main_v20_apply,
    Read.val_main_call3_v0_apply, Read.val_main_call3_cst_apply, branch_apply]
  simp only [Read.val_main_v18_apply, e1, e2, e3]
  rfl

/-- Four arrays side by side. -/
def sideBySide (g0 g1 g2 g3 : Mat 4096 512) : Mat 4096 2048 :=
  concatenate (⟨2, ![4096, 2048]⟩ : Shape) 1
    [⟨⟨2, ![4096, 512]⟩, g0⟩, ⟨⟨2, ![4096, 512]⟩, g1⟩, ⟨⟨2, ![4096, 512]⟩, g2⟩, ⟨⟨2, ![4096, 512]⟩, g3⟩] joins

/-- The concatenate stage is the feature matrix. -/
theorem stage_features (x0 x1 x2 x3 : (⟨S4096x1024, .f32⟩ : BufTy).Contents (Elt Ideal)) (x4 : (⟨S512x1024, .f32⟩ : BufTy).Contents (Elt Ideal)) (x5 : (⟨S512, .f32⟩ : BufTy).Contents (Elt Ideal)) (x6 : (⟨S512x1024, .f32⟩ : BufTy).Contents (Elt Ideal)) (x7 : (⟨S512, .f32⟩ : BufTy).Contents (Elt Ideal)) :
    Read.val_main_v24 (F := Ideal) x0 x1 x2 x3 x4 x5 x6 x7 = features x0 x1 x2 x3 (tr x4) (asRow x5) (tr x6) (asRow x7) := by
  show sideBySide (Read.val_main_v5 (F := Ideal) x0 x4 x5) (Read.val_main_v11 (F := Ideal) x1 x6 x7)
      (Read.val_main_v17 (F := Ideal) x2 x6 x7) (Read.val_main_v23 (F := Ideal) x3 x6 x7)
    = sideBySide (branch x0 (tr x4) (asRow x5)) (branch x1 (tr x6) (asRow x7)) (branch x2 (tr x6) (asRow x7)) (branch x3 (tr x6) (asRow x7))
  rw [stage_branch0, stage_branch1, stage_branch2, stage_branch3]

/-- The last stage is the distance function of the concatenate stage. -/
theorem stage_distances (x0 x1 x2 x3 : (⟨S4096x1024, .f32⟩ : BufTy).Contents (Elt Ideal)) (x4 : (⟨S512x1024, .f32⟩ : BufTy).Contents (Elt Ideal)) (x5 : (⟨S512, .f32⟩ : BufTy).Contents (Elt Ideal)) (x6 : (⟨S512x1024, .f32⟩ : BufTy).Contents (Elt Ideal)) (x7 : (⟨S512, .f32⟩ : BufTy).Contents (Elt Ideal)) (x8 : (⟨S1000x2048, .f32⟩ : BufTy).Contents (Elt Ideal)) :
    Read.val_main_v43 (F := Ideal) x0 x1 x2 x3 x4 x5 x6 x7 x8
      = distances (Read.val_main_v24 (F := Ideal) x0 x1 x2 x3 x4 x5 x6 x7) (tr x8) (asRow (sqNorms x8)) := by
  funext i
  obtain ⟨r, c, rfl⟩ : ∃ (r : Fin 4096) (c : Fin 1000), i = ix2 r c := ⟨i 0, i 1, eq_ix2 i⟩
  have e1 : ∀ d : Fin 2048, Read.idx_main_v26 (Read.idx_main_v27 (Read.idx_main_v31 (ix2 r c))) d = (ix2 r d : S4096x2048.Idx) :=
    fun d => funext fun a => Fin.ext (by match a with | ⟨0, _⟩ => rfl | ⟨1, _⟩ => rfl)
  have e2 : ∀ d : Fin 2048, Read.idx_main_v29 (Read.idx_main_v30 (Read.idx_main_v32 (ix2 r c))) d = (ix2 c d : S1000x2048.Idx) :=
    fun d => funext fun a => Fin.ext (by match a with | ⟨0, _⟩ => rfl | ⟨1, _⟩ => rfl)
  have e3 : ∀ d : Fin 2048, Read.lidx_main_v35 (ix2 r c) d = (ix2 r d : S4096x2048.Idx) :=
    fun d => funext fun a => Fin.ext (by match a with | ⟨0, _⟩ => rfl | ⟨1, _⟩ => rfl)
  have e4 : ∀ d : Fin 2048, Read.idx_main_v34 (Read.ridx_main_v35 (ix2 r c) d) = (ix2 c d : S1000x2048.Idx) :=
    fun d => funext fun a => Fin.ext (by match a with | ⟨0, _⟩ => rfl | ⟨1, _⟩ => rfl)
  rw [Read.val_main_v43_apply, Read.val_main_v41_apply, Read.val_main_v40_apply, Read.val_main_v38_apply, Read.val_main_v33_apply,
    Read.val_main_v31_apply, Read.val_main_v27_apply, Read.val_main_v26_apply, Read.val_main_v32_apply, Read.val_main_v30_apply,
    Read.val_main_v29_apply, Read.val_main_v37_apply, Read.val_main_v36_apply, Read.val_main_cst_1_apply, Read.val_main_v35_apply,
    Read.val_main_v39_apply, Read.val_main_cst_2_apply, Read.val_main_v42_apply, Read.val_main_cst_3_apply, Read.val_main_cst_apply,
    Read.val_main_cst_0_apply, distances_apply]
  simp only [Read.val_main_v25_apply, Read.val_main_v28_apply, Read.val_main_v34_apply, e1, e2, e3, e4]
  generalize Read.val_main_v24 (F := Ideal) x0 x1 x2 x3 x4 x5 x6 x7 = f
  -- the zero word in front of a host sum adds nothing
  have z : ∀ S : EReal, Ideal.ofBits .f32 0x00000000#32 + S = S := fun S => by rw [Ideal.ofBits_zero_f32, zero_add]
  simp only [Ideal.mulf_def, Ideal.addf_def, Ideal.subf_def, Ideal.maximumf_def, Ideal.hostUnary_sqrt_def, Ideal.ofBits_def, z]
  rfl

/-- The last stage is `result` of the arguments. -/
theorem stage_result (x0 x1 x2 x3 : (⟨S4096x1024, .f32⟩ : BufTy).Contents (Elt Ideal)) (x4 : (⟨S512x1024, .f32⟩ : BufTy).Contents (Elt Ideal)) (x5 : (⟨S512, .f32⟩ : BufTy).Contents (Elt Ideal)) (x6 : (⟨S512x1024, .f32⟩ : BufTy).Contents (Elt Ideal)) (x7 : (⟨S512, .f32⟩ : BufTy).Contents (Elt Ideal)) (x8 : (⟨S1000x2048, .f32⟩ : BufTy).Contents (Elt Ideal)) :
    Read.val_main_v43 (F := Ideal) x0 x1 x2 x3 x4 x5 x6 x7 x8 = result x0 x1 x2 x3 x4 x5 x6 x7 x8 := by
  rw [stage_distances, stage_features]
  rfl

end Cert.ReferenceIdeal.ResultValue

end
-- ==== Proof.lean ====
/-
  Distances to class centers after four rectified linear branches: the kernel against its reference, over the extended
  reals.

  Both programs map four inputs through a linear map and a rectifier (the first with one pair of weights and bias, the
  other three with a second pair), lay the four [4096 × 512] results side by side into a feature matrix f, and return
      √( max( (‖f_r‖² + ‖center_c‖²) − 2 · ⟨f_r, center_c⟩ , 0 ) ) · s
  for every row r and center c (`Cert.CenterDistance.result`). The kernel does it in two grids of row blocks — sixteen
  blocks of 256 rows for the features, eight of 512 for the distances — over weights and centers the host transposed
  beforehand; the reference in whole-array operations. Nothing separates them at the extended reals: the same
  operations in the same order on each entry, the matrix products into a zero accumulator and the row sums being the
  same finite sums, the changes of float format the identity, the shared float words never evaluated. No law that
  fails at the infinities is used, so the precondition is not opened.

  The three frames: the kernel's two (at the word-level and the ideal instance) are the generated frame certificates;
  the reference's is its generated run with the result dropped. The idealization rewrote nothing, so `preserves` is
  `True`. The value claim pairs the kernel's run with its result array named (Proof/KernelValue.lean) and the
  reference's run with its last stage read as the same function (Proof/RefValue.lean).
-/
import proofs.«168109_j69372311765581_1_alg».proof.Defs
import proofs.«168109_j69372311765581_1_alg».proof.Proof.Gen.Kernel
import proofs.«168109_j69372311765581_1_alg».proof.Proof.Gen.Kernel.Skeleton
import proofs.«168109_j69372311765581_1_alg».proof.Proof.Gen.Kernel.Launch
import proofs.«168109_j69372311765581_1_alg».proof.Proof.Gen.Kernel.Points
import proofs.«168109_j69372311765581_1_alg».proof.Proof.Gen.Kernel.Frame
import proofs.«168109_j69372311765581_1_alg».proof.Proof.Gen.KernelIdeal
import proofs.«168109_j69372311765581_1_alg».proof.Proof.Gen.KernelIdeal.Skeleton
import proofs.«168109_j69372311765581_1_alg».proof.Proof.Gen.KernelIdeal.Launch
import proofs.«168109_j69372311765581_1_alg».proof.Proof.Gen.KernelIdeal.Points
import proofs.«168109_j69372311765581_1_alg».proof.Proof.Gen.KernelIdeal.Frame
import proofs.«168109_j69372311765581_1_alg».proof.Proof.Gen.ReferenceIdeal
import proofs.«168109_j69372311765581_1_alg».proof.Proof.Gen.Pre_finite_inputs
import proofs.«168109_j69372311765581_1_alg».proof.Proof.Gen.ReferenceIdeal.Run
import proofs.«168109_j69372311765581_1_alg».proof.Proof.Gen.ReferenceIdeal.Read
import proofs.«168109_j69372311765581_1_alg».proof.Proof.KernelValue
import proofs.«168109_j69372311765581_1_alg».proof.Proof.RefValue
import Idealize.ShloMosaic.Adequacy
import Idealize.ShloMosaic.Init

noncomputable section

namespace Cert.Proof

open Idealize.ShloMosaic Idealize.SL.Sem Cert.CenterDistance

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both idealized programs end with the result array at
    `result` of those arguments. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v43_eq, Cert.ReferenceIdeal.ResultValue.stage_result, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
